-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768 : Shape := ⟨2, ![128, 768]⟩
abbrev S131072x768 : Shape := ⟨2, ![131072, 768]⟩
abbrev S512x2 : Shape := ⟨2, ![512, 2]⟩
abbrev S1 : Shape := ⟨1, ![1]⟩
abbrev S512x1 : Shape := ⟨2, ![512, 1]⟩
abbrev S_ : Shape := ⟨0, ![]⟩

class Facts : Prop where
  slices_S512x2_S512x1_0_0 : S512x2.Slices ![0, 0] S512x1
  slices_S512x2_S512x1_0_1 : S512x2.Slices ![0, 1] S512x1
  bcast_S_S128x768 : S_.BroadcastsInDim S128x768 (![] : Fin 0 → Fin S128x768.rank)
  reducesTo_S128x768_S_d0_1 : S128x768.ReducesTo [0, 1] S_
  h_S_ : 0 < S_.numel
  bcast_S_S131072x768 : S_.BroadcastsInDim S131072x768 (![] : Fin 0 → Fin S131072x768.rank)
  reducesTo_S131072x768_S_d0_1 : S131072x768.ReducesTo [0, 1] S_
  bcast_S_S1 : S_.BroadcastsInDim S1 (![] : Fin 0 → Fin S1.rank)
  reducesTo_S1_S_d0 : S1.ReducesTo [0] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v0 : IVec S512x1 32) (main_v1 : IVec S512x1 32) (main_v15 : IVec S_ 1) (main_v16 : IVec S512x1 32) : IVec S_ 1 :=
  let main_v17 : IVec S512x1 1 := cmpi .sge main_v0 main_v16
  let main_c_5 : IVec S_ 32 := constantI S_ 32 128#32
  let main_v18 : IVec S512x1 32 := broadcastInDim S512x1 ![] bcast_S_S512x1 main_c_5
  let main_v19 : IVec S512x1 1 := cmpi .slt main_v0 main_v18
  let main_v20 : IVec S512x1 1 := andi main_v17 main_v19
  let main_c_6 : IVec S_ 1 := constantI S_ 1 1#1
  let main_v21 : IVec S_ 1 := (fun x v => Host.reduce IntOp.andi x v reducesTo_S512x1_S_d0_1 h_S_) main_v20 main_c_6
  let main_v22 : IVec S_ 1 := andi main_v15 main_v21
  let main_c_7 : IVec S_ 32 := constantI S_ 32 0#32
  let main_v23 : IVec S512x1 32 := broadcastInDim S512x1 ![] bcast_S_S512x1 main_c_7
  let main_v24 : IVec S512x1 1 := cmpi .sge main_v1 main_v23
  let main_c_8 : IVec S_ 32 := constantI S_ 32 131072#32
  let main_v25 : IVec S512x1 32 := broadcastInDim S512x1 ![] bcast_S_S512x1 main_c_8
  let main_v26 : IVec S512x1 1 := cmpi .slt main_v1 main_v25
  let main_v27 : IVec S512x1 1 := andi main_v24 main_v26
  let main_c_9 : IVec S_ 1 := constantI S_ 1 1#1
  let main_v28 : IVec S_ 1 := (fun x v => Host.reduce IntOp.andi x v reducesTo_S512x1_S_d0_1 h_S_) main_v27 main_c_9
  let main_v29 : IVec S_ 1 := andi main_v22 main_v28
  main_v29

def fn {F : FTy → Type} [FloatOps F] (main_arg0 : FVec F S128x768 .f32) (main_arg1 : FVec F S131072x768 .f32) (main_arg2 : IVec S512x2 32) (main_arg3 : FVec F S1 .f32) : IVec S_ 1 :=
  let main_v0 : IVec S512x1 32 := (extractStridedSlice S512x1 ![0, 0] · slices_S512x2_S512x1_0_0) main_arg2
  let main_v1 : IVec S512x1 32 := (extractStridedSlice S512x1 ![0, 1] · slices_S512x2_S512x1_0_1) main_arg2
  let main_v2 : FVec F S128x768 .f32 := Host.absf main_arg0
  let main_cst : FVec F S_ .f32 := constant S_ .f32 0x7F800000#32
  let main_v3 : FVec F S128x768 .f32 := broadcastInDim S128x768 ![] bcast_S_S128x768 main_cst
  let main_v4 : IVec S128x768 1 := cmpf .olt main_v2 main_v3
  let main_c : IVec S_ 1 := constantI S_ 1 1#1
  let main_v5 : IVec S_ 1 := (fun x v => Host.reduce IntOp.andi x v reducesTo_S128x768_S_d0_1 h_S_) main_v4 main_c
  let main_v6 : FVec F S131072x768 .f32 := Host.absf main_arg1
  let main_cst_0 : FVec F S_ .f32 := constant S_ .f32 0x7F800000#32
  let main_v7 : FVec F S131072x768 .f32 := broadcastInDim S131072x768 ![] bcast_S_S131072x768 main_cst_0
  let main_v8 : IVec S131072x768 1 := cmpf .olt main_v6 main_v7
  let main_c_1 : IVec S_ 1 := constantI S_ 1 1#1
  let main_v9 : IVec S_ 1 := (fun x v => Host.reduce IntOp.andi x v reducesTo_S131072x768_S_d0_1 h_S_) main_v8 main_c_1
  let main_v10 : IVec S_ 1 := andi main_v5 main_v9
  let main_v11 : FVec F S1 .f32 := Host.absf main_arg3
  let main_cst_2 : FVec F S_ .f32 := constant S_ .f32 0x7F800000#32
  let main_v12 : FVec F S1 .f32 := broadcastInDim S1 ![] bcast_S_S1 main_cst_2
  let main_v13 : IVec S1 1 := cmpf .olt main_v11 main_v12
  let main_c_3 : IVec S_ 1 := constantI S_ 1 1#1
  let main_v14 : IVec S_ 1 := (fun x v => Host.reduce IntOp.andi x v reducesTo_S1_S_d0 h_S_) main_v13 main_c_3
  let main_v15 : IVec S_ 1 := andi main_v10 main_v14
  let main_c_4 : IVec S_ 32 := constantI S_ 32 0#32
  let main_v16 : IVec S512x1 32 := broadcastInDim S512x1 ![] bcast_S_S512x1 main_c_4
  fn_part1 (F := F) main_v0 main_v1 main_v15 main_v16
-- ==== Kernel.lean ====
abbrev S128x768 : Shape := ⟨2, ![128, 768]⟩
abbrev S131072x768 : Shape := ⟨2, ![131072, 768]⟩
abbrev S512x2 : Shape := ⟨2, ![512, 2]⟩
abbrev S1 : Shape := ⟨1, ![1]⟩
abbrev S512x1 : Shape := ⟨2, ![512, 1]⟩
abbrev S512 : Shape := ⟨1, ![512]⟩
abbrev S1x512 : Shape := ⟨2, ![1, 512]⟩
abbrev S1x1 : Shape := ⟨2, ![1, 1]⟩
abbrev S2x128x768 : Shape := ⟨3, ![2, 128, 768]⟩
abbrev S2048x768 : Shape := ⟨2, ![2048, 768]⟩
abbrev S1x128x768 : Shape := ⟨3, ![1, 128, 768]⟩
abbrev S128x512 : Shape := ⟨2, ![128, 512]⟩
abbrev S128x2048 : Shape := ⟨2, ![128, 2048]⟩
abbrev S2048x512 : Shape := ⟨2, ![2048, 512]⟩

abbrev nBuf : Space → Nat
  | .hbm => 18
  | .vmem => 11
  | .smem => 0
  | _ => 0

abbrev bufTy : (tb : Table) → Fin (tcTables nBuf tb) → BufTy
  | .hbm, ⟨0, _⟩ => ⟨S128x768, .f32⟩
  | .hbm, ⟨1, _⟩ => ⟨S131072x768, .f32⟩
  | .hbm, ⟨2, _⟩ => ⟨S512x2, .i32⟩
  | .hbm, ⟨3, _⟩ => ⟨S1, .f32⟩
  | .hbm, ⟨4, _⟩ => ⟨S512x1, .i32⟩
  | .hbm, ⟨5, _⟩ => ⟨S512, .i32⟩
  | .hbm, ⟨6, _⟩ => ⟨S1x512, .i32⟩
  | .hbm, ⟨7, _⟩ => ⟨S512x1, .i32⟩
  | .hbm, ⟨8, _⟩ => ⟨S512, .i32⟩
  | .hbm, ⟨9, _⟩ => ⟨S1x512, .i32⟩
  | .hbm, ⟨10, _⟩ => ⟨S1x1, .f32⟩
  | .hbm, ⟨11, _⟩ => ⟨S2x128x768, .f32⟩
  | .hbm, ⟨12, _⟩ => ⟨S131072x768, .f32⟩
  | .hbm, ⟨13, _⟩ => ⟨S1x128x768, .f32⟩
  | .hbm, ⟨14, _⟩ => ⟨S128x768, .f32⟩
  | .hbm, ⟨15, _⟩ => ⟨S1x128x768, .f32⟩
  | .hbm, ⟨16, _⟩ => ⟨S128x768, .f32⟩
  | .hbm, ⟨17, _⟩ => ⟨S128x768, .f32⟩
  | .local _ .vmem, ⟨0, _⟩ => ⟨S128x768, .f32⟩
  | .local _ .vmem, ⟨1, _⟩ => ⟨S2048x768, .f32⟩
  | .local _ .vmem, ⟨2, _⟩ => ⟨S2048x768, .f32⟩
  | .local _ .vmem, ⟨3, _⟩ => ⟨S1x512, .i32⟩
  | .local _ .vmem, ⟨4, _⟩ => ⟨S1x512, .i32⟩
  | .local _ .vmem, ⟨5, _⟩ => ⟨S1x1, .f32⟩
  | .local _ .vmem, ⟨6, _⟩ => ⟨S1x128x768, .f32⟩
  | .local _ .vmem, ⟨7, _⟩ => ⟨S1x128x768, .f32⟩
  | .local _ .vmem, ⟨8, _⟩ => ⟨S2048x768, .f32⟩
  | .local _ .vmem, ⟨9, _⟩ => ⟨S2048x768, .f32⟩
  | .local _ .vmem, ⟨10, _⟩ => ⟨S128x512, .bf16⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S512x2_S512x1_0_0 : S512x2.Slices ![0, 0] S512x1
  shapeCasts_S512x1_S512 : S512x1.ShapeCasts S512
  shapeCasts_S512_S1x512 : S512.ShapeCasts S1x512
  slices_S512x2_S512x1_0_1 : S512x2.Slices ![0, 1] S512x1
  shapeCasts_S1_S1x1 : S1.ShapeCasts S1x1
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S1x128x768 : S128x768.ShapeCasts S1x128x768
  iota_S128x512_d0_w32 : S128x512.Iotas .tc 32 [0]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  natLt_1_32 : 1 < 32
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  packedbf16_S128x512_S128x512_0_0 : (Rect.unit (s := S128x512) ![0, 0] S128x512.size inb_S128x512_S128x512_0_0).PackedRows (EltTy.packing .bf16)
  inb_S128x768_S128x768_0_0 : ∀ a, (![0, 0] : Fin 2 → Nat) a + S128x768.size a ≤ S128x768.size a
  h_S128x768 : 0 < S128x768.numel
  inb_S2048x768_S2048x768_0_0 : ∀ a, (![0, 0] : Fin 2 → Nat) a + S2048x768.size a ≤ S2048x768.size a
  h_S2048x768 : 0 < S2048x768.numel
  iota_S2048x512_d0_w32 : S2048x512.Iotas .tc 32 [0]
  broadcasts_S1x512_S2048x512 : S1x512.Broadcasts S2048x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S2x128x768_S1x128x768_0_0_0 : S2x128x768.Slices ![0, 0, 0] S1x128x768
  slices_S2x128x768_S1x128x768_1_0_0 : S2x128x768.Slices ![1, 0, 0] S1x128x768
  dot_S128x768_S2048x768_S128x2048_1_1_0_0_n_n_wf : DotDims.WF S128x768 S2048x768 S128x2048 [1] [1] [0] [0] [] []
  dot_S128x512_S2048x512_S128x2048_1_1_0_0_n_n_wf : DotDims.WF S128x512 S2048x512 S128x2048 [1] [1] [0] [0] [] []
  dot_S128x2048_S2048x768_S128x768_1_0_0_1_n_n_wf : DotDims.WF S128x2048 S2048x768 S128x768 [1] [0] [0] [1] [] []
  dot_S128x2048_S128x768_S2048x768_0_0_1_1_n_n_wf : DotDims.WF S128x2048 S128x768 S2048x768 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S128x768.size a
  hwx0_0 : ∀ i : grid0.Coords, EltTy.bits .f32 = 32 ∨ (Rect.block (s := S128x768) S128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S131072x768.size a
  hwx0_1 : ∀ i : grid0.Coords, EltTy.bits .f32 = 32 ∨ (Rect.block (s := S131072x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .i32 = 32 ∨ (Rect.block (s := S1x512) S1x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .i32 = 32 ∨ (Rect.block (s := S1x512) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x768.size a ≤ S2x128x768.size a
  hwx0_5 : ∀ i : grid0.Coords, EltTy.bits .f32 = 32 ∨ (Rect.block (s := S2x128x768) S1x128x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x768.size a ≤ S131072x768.size a
  hwx0_6 : ∀ i : grid0.Coords, EltTy.bits .f32 = 32 ∨ (Rect.block (s := S131072x768) S2048x768.size (cc0_transform_6 i) (hinb0_6 i)).WholeWords (EltTy.packing .f32)

variable [Facts₀]

def dot_S128x768_S2048x768_S128x2048_1_1_0_0_n_n : DotDims S128x768 S2048x768 S128x2048 where
  lhsContracting := [1]
  rhsContracting := [1]
  lhsNonContracting := [0]
  rhsNonContracting := [0]
  lhsBatch := []
  rhsBatch := []
  wf := dot_S128x768_S2048x768_S128x2048_1_1_0_0_n_n_wf
def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S128x2048_S2048x768_S128x768_1_0_0_1_n_n : DotDims S128x2048 S2048x768 S128x768 where
  lhsContracting := [1]
  rhsContracting := [0]
  lhsNonContracting := [0]
  rhsNonContracting := [1]
  lhsBatch := []
  rhsBatch := []
  wf := dot_S128x2048_S2048x768_S128x768_1_0_0_1_n_n_wf
def dot_S128x2048_S128x768_S2048x768_0_0_1_1_n_n : DotDims S128x2048 S128x768 S2048x768 where
  lhsContracting := [0]
  rhsContracting := [0]
  lhsNonContracting := [1]
  rhsNonContracting := [1]
  lhsBatch := []
  rhsBatch := []
  wf := dot_S128x2048_S128x768_S2048x768_0_0_1_1_n_n_wf

abbrev win0_0 : Pipeline.Window sig grid0 :=
  Pipeline.Window.ofSpec (Memref.whole main_arg0) S128x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S1x128x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S2048x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x768 : Shape := ⟨2, ![128, 768]⟩
abbrev S131072x768 : Shape := ⟨2, ![131072, 768]⟩
abbrev S512x2 : Shape := ⟨2, ![512, 2]⟩
abbrev S1 : Shape := ⟨1, ![1]⟩
abbrev S512x1 : Shape := ⟨2, ![512, 1]⟩
abbrev S512 : Shape := ⟨1, ![512]⟩
abbrev S768x131072 : Shape := ⟨2, ![768, 131072]⟩
abbrev S128x131072 : Shape := ⟨2, ![128, 131072]⟩
abbrev S_ : Shape := ⟨0, ![]⟩
abbrev S131072x128 : Shape := ⟨2, ![131072, 128]⟩

abbrev nBuf : Space → Nat
  | .hbm => 68
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S131072x768, .f32⟩
  | .hbm, ⟨2, _⟩ => ⟨S512x2, .i32⟩
  | .hbm, ⟨3, _⟩ => ⟨S1, .f32⟩
  | .hbm, ⟨4, _⟩ => ⟨S512x1, .i32⟩
  | .hbm, ⟨5, _⟩ => ⟨S512, .i32⟩
  | .hbm, ⟨6, _⟩ => ⟨S512x1, .i32⟩
  | .hbm, ⟨7, _⟩ => ⟨S512, .i32⟩
  | .hbm, ⟨8, _⟩ => ⟨S768x131072, .f32⟩
  | .hbm, ⟨9, _⟩ => ⟨S128x131072, .f32⟩
  | .hbm, ⟨10, _⟩ => ⟨S128x131072, .f32⟩
  | .hbm, ⟨11, _⟩ => ⟨S128x131072, .f32⟩
  | .hbm, ⟨12, _⟩ => ⟨S_, .f32⟩
  | .hbm, ⟨13, _⟩ => ⟨S128x131072, .f32⟩
  | .hbm, ⟨14, _⟩ => ⟨S128x131072, .f32⟩
  | .hbm, ⟨15, _⟩ => ⟨S_, .f32⟩
  | .hbm, ⟨16, _⟩ => ⟨S128x131072, .f32⟩
  | .hbm, ⟨17, _⟩ => ⟨S128x131072, .f32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S512x1, .i32⟩
  | .hbm, ⟨34, _⟩ => ⟨S512x2, .i32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x1, .i32⟩
  | .hbm, ⟨55, _⟩ => ⟨S512x2, .i32⟩
  | .hbm, ⟨56, _⟩ => ⟨S128x131072, .f32⟩
  | .hbm, ⟨57, _⟩ => ⟨S128x768, .f32⟩
  | .hbm, ⟨58, _⟩ => ⟨S131072x128, .f32⟩
  | .hbm, ⟨59, _⟩ => ⟨S131072x768, .f32⟩
  | .hbm, ⟨60, _⟩ => ⟨S_, .f32⟩
  | .hbm, ⟨61, _⟩ => ⟨S131072x768, .f32⟩
  | .hbm, ⟨62, _⟩ => ⟨S131072x768, .f32⟩
  | .hbm, ⟨63, _⟩ => ⟨S131072x768, .f32⟩
  | .hbm, ⟨64, _⟩ => ⟨S_, .f32⟩
  | .hbm, ⟨65, _⟩ => ⟨S131072x768, .f32⟩
  | .hbm, ⟨66, _⟩ => ⟨S131072x768, .f32⟩
  | .hbm, ⟨67, _⟩ => ⟨S131072x768, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  slices_S512x2_S512x1_0_0 : S512x2.Slices ![0, 0] S512x1
  shapeCasts_S512x1_S512 : S512x1.ShapeCasts S512
  slices_S512x2_S512x1_0_1 : S512x2.Slices ![0, 1] S512x1
  transposes_S131072x768_S768x131072_1_0 : S131072x768.Transposes [1, 0] S768x131072
  bcast_S_S128x131072 : S_.BroadcastsInDim S128x131072 (![] : Fin 0 → Fin S128x131072.rank)
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  transposes_S128x131072_S131072x128_1_0 : S128x131072.Transposes [1, 0] S131072x128
  bcast_S_S131072x768 : S_.BroadcastsInDim S131072x768 (![] : Fin 0 → Fin S131072x768.rank)
  shapeCasts_S1_S_ : S1.ShapeCasts S_
  dot_S128x768_S768x131072_S128x131072_1_0_0_1_n_n_wf : DotDims.WF S128x768 S768x131072 S128x131072 [1] [0] [0] [1] [] []
  gather_S128x131072_S512x2_S512_n_01_n_n_01_1_11_wf : GatherDims.WF S128x131072 S512x2 S512 [] [0, 1] [] [0, 1] [] 1 ![1, 1]
  scatter_S128x131072_S512x2_S512_n_01_01_1_wf : ScatterDims.WF S128x131072 S512x2 S512 [] [0, 1] [0, 1] 1
  dot_S128x131072_S131072x768_S128x768_1_0_0_1_n_n_wf : DotDims.WF S128x131072 S131072x768 S128x768 [1] [0] [0] [1] [] []
  dot_S131072x128_S128x768_S131072x768_1_0_0_1_n_n_wf : DotDims.WF S131072x128 S128x768 S131072x768 [1] [0] [0] [1] [] []

variable [Facts₀]

def dot_S128x768_S768x131072_S128x131072_1_0_0_1_n_n : DotDims S128x768 S768x131072 S128x131072 where
  lhsContracting := [1]
  rhsContracting := [0]
  lhsNonContracting := [0]
  rhsNonContracting := [1]
  lhsBatch := []
  rhsBatch := []
  wf := dot_S128x768_S768x131072_S128x131072_1_0_0_1_n_n_wf
def gather_S128x131072_S512x2_S512_n_01_n_n_01_1_11 : GatherDims S128x131072 S512x2 S512 where
  offsetDims := []
  collapsedSliceDims := [0, 1]
  operandBatchingDims := []
  startIndicesBatchingDims := []
  startIndexMap := [0, 1]
  indexVectorDim := 1
  sliceSizes := ![1, 1]
  wf := gather_S128x131072_S512x2_S512_n_01_n_n_01_1_11_wf
def scatter_S128x131072_S512x2_S512_n_01_01_1 : ScatterDims S128x131072 S512x2 S512 where
  updateWindowDims := []
  insertedWindowDims := [0, 1]
  scatterDimsToOperandDims := [0, 1]
  indexVectorDim := 1
  wf := scatter_S128x131072_S512x2_S512_n_01_01_1_wf
def dot_S128x131072_S131072x768_S128x768_1_0_0_1_n_n : DotDims S128x131072 S131072x768 S128x768 where
  lhsContracting := [1]
  rhsContracting := [0]
  lhsNonContracting := [0]
  rhsNonContracting := [1]
  lhsBatch := []
  rhsBatch := []
  wf := dot_S128x131072_S131072x768_S128x768_1_0_0_1_n_n_wf
def dot_S131072x128_S128x768_S131072x768_1_0_0_1_n_n : DotDims S131072x128 S128x768 S131072x768 where
  lhsContracting := [1]
  rhsContracting := [0]
  lhsNonContracting := [0]
  rhsNonContracting := [1]
  lhsBatch := []
  rhsBatch := []
  wf := dot_S131072x128_S128x768_S131072x768_1_0_0_1_n_n_wf

class Facts : Prop extends Facts₀ where

variable [Facts]
-- ==== Proof.Pieces.lean ====
/-
  What one run of the kernel body leaves behind, as values: at a half's first chunk (case A) the body caches the
  one-hot of the rows, zeroes the accumulator and adds the chunk's share; at every other chunk (case B) it keeps the
  cache and adds the chunk's share to what the accumulator held. The weight block is the same function of the
  chunk's loss gradient in both. Each is the one covering store's value, its loads read back through whole buffers.
-/
import proofs.«427815_j37340445672285_2_alg».proof.Proof.Gen.KernelIdeal.Frame
import Idealize.ShloMosaic.Lib.Pipeline.Value
import Idealize.ShloMosaic.Lib.Tactic

set_option maxRecDepth 16384

noncomputable section

namespace Cert.Xmc.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The loss-gradient block of the chunk at grid point `i`, from the embeddings, the weight block, the cached one-hot
    of the rows and the columns. -/
abbrev pblk (i : grid0.Coords) (x0 : Vec F S128x768 .f32) (x1 : Vec F S2048x768 .f32) (rh : Vec F S128x512 .bf16)
    (x3 : Vec F S1x512 .i32) : FVec F S128x2048 .f32 := k0_pay4 i x0 x1 rh x3

/-- Case A caches the one-hot of the rows. -/
theorem scratch_A (c : Dev nD) (i : grid0.Coords) (arg2 : Memref sig .tc .vmem S128x768 .f32) (harg2 : arg2.IsWhole) (arg3 : Memref sig .tc .vmem S2048x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x128x768 .f32) (harg7 : arg7.IsWhole) (arg8 : Memref sig .tc .vmem S2048x768 .f32) (harg8 : arg8.IsWhole) (arg9 : Memref sig .tc .vmem S128x512 .bf16) (harg9 : arg9.IsWhole) (hc0 : cond0_0 i) (x0 : Vec F S128x768 .f32) (x1 : Vec F S2048x768 .f32) (x2 : Vec F S1x512 .i32) (x3 : Vec F S1x512 .i32) (x4 : Vec F S1x1 .f32) :
    sout0_A_0 c i arg2 harg2 arg3 harg3 arg4 harg4 arg5 harg5 arg6 harg6 arg7 harg7 arg8 harg8 arg9 harg9 hc0 x0 x1 x2 x3 x4 = k0_pay3 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S128x768) hz2, View.ld_unit_zero (S := S2048x768) hz2, View.ld_unit_zero (S := S1x512) hz2, View.ld_unit_zero (S := S1x1) hz2, View.ld_unit_zero (S := S128x512) hz2, View.ld_unit_zero (S := S1x128x768) hz3]

/-- Case A leaves in the accumulator the chunk's share added to zero. -/
theorem out5_A (c : Dev nD) (i : grid0.Coords) (arg2 : Memref sig .tc .vmem S128x768 .f32) (harg2 : arg2.IsWhole) (arg3 : Memref sig .tc .vmem S2048x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x128x768 .f32) (harg7 : arg7.IsWhole) (arg8 : Memref sig .tc .vmem S2048x768 .f32) (harg8 : arg8.IsWhole) (arg9 : Memref sig .tc .vmem S128x512 .bf16) (harg9 : arg9.IsWhole) (hc0 : cond0_0 i) (x0 : Vec F S128x768 .f32) (x1 : Vec F S2048x768 .f32) (x2 : Vec F S1x512 .i32) (x3 : Vec F S1x512 .i32) (x4 : Vec F S1x1 .f32) :
    out0_A_5 c i arg2 harg2 arg3 harg3 arg4 harg4 arg5 harg5 arg6 harg6 arg7 harg7 arg8 harg8 arg9 harg9 hc0 x0 x1 x2 x3 x4 = k0_pay5 i x0 x1 (k0_pay3 x2) x3 (k0_pay2 (F := F)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x128x768) hz3]
  simp only [View.readAt_eq_ld, harg2.read_unread, harg3.read_unread, harg4.read_unread, harg5.read_unread, harg6.read_unread, harg7.read_unread, harg9.read_unread, View.ld_unit_zero (S := S128x768) hz2, View.ld_unit_zero (S := S2048x768) hz2, View.ld_unit_zero (S := S1x512) hz2, View.ld_unit_zero (S := S1x1) hz2, View.ld_unit_zero (S := S128x512) hz2, View.ld_unit_zero (S := S1x128x768) hz3, View.readCov_unit_zero (S := S128x512) _ hz2, View.readCov_unit_zero (S := S1x128x768) _ hz3]

/-- Case A's weight block. -/
theorem out6_A (c : Dev nD) (i : grid0.Coords) (arg2 : Memref sig .tc .vmem S128x768 .f32) (harg2 : arg2.IsWhole) (arg3 : Memref sig .tc .vmem S2048x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x128x768 .f32) (harg7 : arg7.IsWhole) (arg8 : Memref sig .tc .vmem S2048x768 .f32) (harg8 : arg8.IsWhole) (arg9 : Memref sig .tc .vmem S128x512 .bf16) (harg9 : arg9.IsWhole) (hc0 : cond0_0 i) (x0 : Vec F S128x768 .f32) (x1 : Vec F S2048x768 .f32) (x2 : Vec F S1x512 .i32) (x3 : Vec F S1x512 .i32) (x4 : Vec F S1x1 .f32) :
    out0_A_6 c i arg2 harg2 arg3 harg3 arg4 harg4 arg5 harg5 arg6 harg6 arg7 harg7 arg8 harg8 arg9 harg9 hc0 x0 x1 x2 x3 x4 = k0_pay1 x0 x1 (pblk i x0 x1 (k0_pay3 x2) x3) x4 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S128x768) hz2, View.ld_unit_zero (S := S2048x768) hz2, View.ld_unit_zero (S := S1x512) hz2, View.ld_unit_zero (S := S1x1) hz2, View.ld_unit_zero (S := S128x512) hz2, View.ld_unit_zero (S := S1x128x768) hz3, View.readCov_unit_zero (S := S128x512) _ hz2, View.readCov_unit_zero (S := S1x128x768) _ hz3]

/-- Case B adds the chunk's share to what the accumulator held. -/
theorem out5_B (c : Dev nD) (i : grid0.Coords) (arg2 : Memref sig .tc .vmem S128x768 .f32) (harg2 : arg2.IsWhole) (arg3 : Memref sig .tc .vmem S2048x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x128x768 .f32) (harg7 : arg7.IsWhole) (arg8 : Memref sig .tc .vmem S2048x768 .f32) (harg8 : arg8.IsWhole) (arg9 : Memref sig .tc .vmem S128x512 .bf16) (harg9 : arg9.IsWhole) (hc0 : ¬cond0_0 i) (x0 : Vec F S128x768 .f32) (x1 : Vec F S2048x768 .f32) (x2 : Vec F S1x512 .i32) (x3 : Vec F S1x512 .i32) (x4 : Vec F S1x1 .f32) (xo5 : Vec F S1x128x768 .f32) (xs0 : Vec F S128x512 .bf16) :
    out0_B_5 c i arg2 harg2 arg3 harg3 arg4 harg4 arg5 harg5 arg6 harg6 arg7 harg7 arg8 harg8 arg9 harg9 hc0 x0 x1 x2 x3 x4 xo5 xs0 = k0_pay5 i x0 x1 xs0 x3 xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo5 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg9.read_unread, View.ld_unit_zero (S := S128x768) hz2, View.ld_unit_zero (S := S2048x768) hz2, View.ld_unit_zero (S := S1x512) hz2, View.ld_unit_zero (S := S1x1) hz2, View.ld_unit_zero (S := S128x512) hz2, View.ld_unit_zero (S := S1x128x768) hz3]

/-- Case B's weight block. -/
theorem out6_B (c : Dev nD) (i : grid0.Coords) (arg2 : Memref sig .tc .vmem S128x768 .f32) (harg2 : arg2.IsWhole) (arg3 : Memref sig .tc .vmem S2048x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x128x768 .f32) (harg7 : arg7.IsWhole) (arg8 : Memref sig .tc .vmem S2048x768 .f32) (harg8 : arg8.IsWhole) (arg9 : Memref sig .tc .vmem S128x512 .bf16) (harg9 : arg9.IsWhole) (hc0 : ¬cond0_0 i) (x0 : Vec F S128x768 .f32) (x1 : Vec F S2048x768 .f32) (x2 : Vec F S1x512 .i32) (x3 : Vec F S1x512 .i32) (x4 : Vec F S1x1 .f32) (xo5 : Vec F S1x128x768 .f32) (xs0 : Vec F S128x512 .bf16) :
    out0_B_6 c i arg2 harg2 arg3 harg3 arg4 harg4 arg5 harg5 arg6 harg6 arg7 harg7 arg8 harg8 arg9 harg9 hc0 x0 x1 x2 x3 x4 xo5 xs0 = k0_pay1 x0 x1 (pblk i x0 x1 xs0 x3) x4 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo5 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S128x768) hz2, View.ld_unit_zero (S := S2048x768) hz2, View.ld_unit_zero (S := S1x512) hz2, View.ld_unit_zero (S := S1x1) hz2, View.ld_unit_zero (S := S128x512) hz2, View.ld_unit_zero (S := S1x128x768) hz3]

end Cert.Xmc.Pieces

end
-- ==== Proof.Blocks.lean ====
/-
  The blocks the kernel body is handed at grid point t (t = 32·core + chunk), as entries of the argument arrays:
  the embeddings whole; rows t·2048 … t·2048+2047 of the weights; the rows and the columns of the listed pairs, each laid
  out as one lane-dense row of 512 words; the learning rate as a [1, 1] array.
-/
import proofs.«427815_j37340445672285_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.Xmc.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps and the grid's coordinates, decided once over the 64 points: the weight blocks walk the
    label axis in point order, the accumulator's block is the point's half, everything else stays put. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 32 ∧ win0_5.index t (1 : Fin 3) = 0 ∧ win0_5.index t (2 : Fin 3) = 0
    ∧ win0_6.index t (0 : Fin 2) = t.val ∧ win0_6.index t (1 : Fin 2) = 0
    ∧ (grid0.coords t 0).val = t.val / 32 ∧ (grid0.coords t 1).val = t.val % 32 :=
  (by decide +kernel : ∀ t : Fin grid0.N, _)

/-- The blocks by their literal types. -/
abbrev eblk (c : Dev nD) (t : Fin cfg0.N) : Vec F S128x768 .f32 := iblk m c 0 t
abbrev wblk (c : Dev nD) (t : Fin cfg0.N) : Vec F S2048x768 .f32 := iblk m c 1 t
abbrev rblk (c : Dev nD) (t : Fin cfg0.N) : Vec F S1x512 .i32 := iblk m c 2 t
abbrev cblk (c : Dev nD) (t : Fin cfg0.N) : Vec F S1x512 .i32 := iblk m c 3 t
abbrev lblk (c : Dev nD) (t : Fin cfg0.N) : Vec F S1x1 .f32 := iblk m c 4 t

theorem eblk_apply (c : Dev nD) (t : Fin cfg0.N) (b : Fin 128) (k : Fin 768) :
    eblk m c t (ix2 b k) = m ((c : Thread nD τ).loc main_arg0) (ix2 b k) := by
  obtain ⟨e0, e1, -⟩ := idx_facts t
  unfold eblk iblk
  rw [View.read_apply]
  show V m c main_arg0 _ = _
  rw [V_main_arg0]
  congr 1
  funext a; apply Fin.ext
  match a with
  | ⟨0, _⟩ => show win0_0.index t (0 : Fin 2) * 128 + 1 * b.val = b.val; omega
  | ⟨1, _⟩ => show win0_0.index t (1 : Fin 2) * 768 + 1 * k.val = k.val; omega

theorem wblk_apply (c : Dev nD) (t : Fin cfg0.N) (j : Fin 2048) (k : Fin 768) (l : Fin 131072) (hl : l.val = t.val * 2048 + j.val) :
    wblk m c t (ix2 j k) = m ((c : Thread nD τ).loc main_arg1) (ix2 l k) := by
  obtain ⟨-, -, e0, e1, -⟩ := idx_facts t
  unfold wblk iblk
  rw [View.read_apply]
  show V m c main_arg1 _ = _
  rw [V_main_arg1]
  congr 1
  funext a; apply Fin.ext
  match a with
  | ⟨0, _⟩ => show win0_1.index t (0 : Fin 2) * 2048 + 1 * j.val = l.val; omega
  | ⟨1, _⟩ => show win0_1.index t (1 : Fin 2) * 768 + 1 * k.val = k.val; omega

/-! ## The arrays the host prefix lays out -/

/-- The rows' array the region finds: column 0 of the pairs, reshaped [512,1] → [512] → [1,512]. -/
theorem V_rows (c : Dev nD) : (V m c main_v2 : S1x512.Idx → Elt F .i32)
    = shapeCast S1x512 (shapeCast S512 (extractStridedSlice S512x1 ![0, 0] (m ((c : Thread nD τ).loc main_arg2)) Facts₀.slices_S512x2_S512x1_0_0) Facts₀.shapeCasts_S512x1_S512) Facts₀.shapeCasts_S512_S1x512 := by
  show StableHlo.after hostOps0 (fun b => m (c, b)) (Proc.devRef .tc main_v2) = _
  after_results
  rfl

/-- The columns' array: column 1 of the pairs, laid out the same way. -/
theorem V_cols (c : Dev nD) : (V m c main_v5 : S1x512.Idx → Elt F .i32)
    = shapeCast S1x512 (shapeCast S512 (extractStridedSlice S512x1 ![0, 1] (m ((c : Thread nD τ).loc main_arg2)) Facts₀.slices_S512x2_S512x1_0_1) Facts₀.shapeCasts_S512x1_S512) Facts₀.shapeCasts_S512_S1x512 := by
  show StableHlo.after hostOps0 (fun b => m (c, b)) (Proc.devRef .tc main_v5) = _
  after_results
  rfl

/-- The learning rate as a [1,1] array. -/
theorem V_rate (c : Dev nD) : (V m c main_v6 : S1x1.Idx → Elt F .f32)
    = shapeCast S1x1 (m ((c : Thread nD τ).loc main_arg3)) Facts₀.shapeCasts_S1_S1x1 := by
  show StableHlo.after hostOps0 (fun b => m (c, b)) (Proc.devRef .tc main_v6) = _
  after_results
  rfl

/-- A column of the pairs laid out as a row, read at lane n: pair n's entry. -/
theorem lane_apply (x : S512x2.Idx → Elt F .i32) (q : Fin 2) (off : Fin 2 → Nat) (hoff : off = ![0, q.val])
    (h : S512x2.Slices off S512x1) (n : Fin 512) :
    shapeCast S1x512 (shapeCast S512 (extractStridedSlice S512x1 off x h) Facts₀.shapeCasts_S512x1_S512) Facts₀.shapeCasts_S512_S1x512 (ix2 0 n)
      = x (ix2 n q) := by
  subst hoff
  rw [shapeCast_apply _ Facts₀.shapeCasts_S512_S1x512 (ix2 (0 : Fin 1) n) (ix1 n) (by
        rewrite [Shape.rowMajor_val_two, Shape.rowMajor_val_one]; show n.val = 0 * 512 + n.val; omega),
    shapeCast_apply _ Facts₀.shapeCasts_S512x1_S512 (ix1 n) (ix2 n (0 : Fin 1)) (by
        rewrite [Shape.rowMajor_val_two, Shape.rowMajor_val_one]; show n.val * 1 + 0 = n.val; omega),
    extractStridedSlice_apply _ x h (ix2 n (0 : Fin 1)) (ix2 n q) (fun a => by
        match a with
        | ⟨0, _⟩ => show n.val = 0 + n.val; omega
        | ⟨1, _⟩ => show q.val = q.val + 0; omega)]

theorem rblk_apply (c : Dev nD) (t : Fin cfg0.N) (n : Fin 512) :
    rblk m c t (ix2 0 n) = m ((c : Thread nD τ).loc main_arg2) (ix2 n 0) := by
  obtain ⟨-, -, -, -, e0, e1, -⟩ := idx_facts t
  unfold rblk iblk
  rw [View.read_apply]
  show V m c main_v2 _ = _
  rw [V_rows]
  refine Eq.trans (congrArg _ ?_) (lane_apply _ 0 ![0, 0] rfl _ n)
  funext a; apply Fin.ext
  match a with
  | ⟨0, _⟩ => show win0_2.index t (0 : Fin 2) * 1 + 1 * 0 = 0; omega
  | ⟨1, _⟩ => show win0_2.index t (1 : Fin 2) * 512 + 1 * n.val = n.val; omega

theorem cblk_apply (c : Dev nD) (t : Fin cfg0.N) (n : Fin 512) :
    cblk m c t (ix2 0 n) = m ((c : Thread nD τ).loc main_arg2) (ix2 n 1) := by
  obtain ⟨-, -, -, -, -, -, e0, e1, -⟩ := idx_facts t
  unfold cblk iblk
  rw [View.read_apply]
  show V m c main_v5 _ = _
  rw [V_cols]
  refine Eq.trans (congrArg _ ?_) (lane_apply _ 1 ![0, 1] rfl _ n)
  funext a; apply Fin.ext
  match a with
  | ⟨0, _⟩ => show win0_3.index t (0 : Fin 2) * 1 + 1 * 0 = 0; omega
  | ⟨1, _⟩ => show win0_3.index t (1 : Fin 2) * 512 + 1 * n.val = n.val; omega

theorem lblk_apply (c : Dev nD) (t : Fin cfg0.N) :
    lblk m c t (ix2 0 0) = m ((c : Thread nD τ).loc main_arg3) (ix1 0) := by
  obtain ⟨-, -, -, -, -, -, -, -, e0, e1, -⟩ := idx_facts t
  unfold lblk iblk
  rw [View.read_apply]
  show V m c main_v6 _ = _
  rw [V_rate]
  refine Eq.trans (congrArg _ ?_) (shapeCast_apply _ Facts₀.shapeCasts_S1_S1x1 (ix2 (0 : Fin 1) (0 : Fin 1)) (ix1 (0 : Fin 1)) (by
        rewrite [Shape.rowMajor_val_two, Shape.rowMajor_val_one]; rfl))
  funext a; apply Fin.ext
  match a with
  | ⟨0, _⟩ => show win0_4.index t (0 : Fin 2) * 1 + 1 * 0 = 0; omega
  | ⟨1, _⟩ => show win0_4.index t (1 : Fin 2) * 1 + 1 * 0 = 0; omega

/-- The rows' and the columns' blocks do not move with the point. -/
theorem rblk_const (c : Dev nD) (t t' : Fin cfg0.N) : rblk m c t = rblk m c t' := by
  funext y
  obtain ⟨p, n, rfl⟩ : ∃ (p : Fin 1) (n : Fin 512), y = ix2 p n := ⟨y 0, y 1, eq_ix2 y⟩
  obtain rfl : p = 0 := Subsingleton.elim _ _
  rw [rblk_apply, rblk_apply]

end Cert.Xmc.Blocks

end
-- ==== Proof.Spec.lean ====
/-
  The mathematics both programs compute: one step of a binary-cross-entropy classifier over 131072 labels.
  For a batch of 128 embeddings E (768 features) and a weight matrix W (one row per label), the logit of
  (example b, label l) is the inner product of row b of E with row l of W; its probability is the logistic of the
  logit; the loss gradient at (b, l) is that probability, less one where (b, l) is one of the 512 listed positive
  pairs (a pair listed twice counts once). The step returns the gradient with respect to the embeddings,
  gradIn = P · W, and the weights after a gradient step with weight decay, newW = W − lr · (Pᵀ · E + wd · W).

  The sum over the 131072 labels can be taken chunk by chunk (64 chunks of 2048 labels) and, the chunks in two
  halves of 32, half by half: addition of extended reals is commutative and associative, so the order is free.
-/
import Idealize.ShloMosaic.PureOps.Ideal
import Idealize.ShloMosaic.Lib.ValueIdx

noncomputable section

namespace Cert.Xmc

open Idealize.ShloMosaic Idealize.ShloMosaic.ValueIdx
open scoped BigOperators

/-- Embeddings [128, 768]; weights [131072, 768]; positive pairs [512, 2]; learning rate [1]. -/
abbrev SE : Shape := ⟨2, ![128, 768]⟩
abbrev SW : Shape := ⟨2, ![131072, 768]⟩
abbrev SL : Shape := ⟨2, ![512, 2]⟩
abbrev SR : Shape := ⟨1, ![1]⟩

/-- The weight-decay coefficient, the binary32 number nearest 1e-4, as both programs carry it. -/
def wd : EReal := Ideal.ofBits .f32 0x38D1B717#32

variable (E : SE.Idx → EReal) (W : SW.Idx → EReal) (Lb : IVec SL 32) (lr : SR.Idx → EReal)

/-- The logit of example `b` against label `l`. -/
def logit (b : Fin 128) (l : Fin 131072) : EReal := ∑ k : Fin 768, E (ix2 b k) * W (ix2 l k)

/-- `(b, l)` is one of the listed positive pairs. -/
def hit (b : Fin 128) (l : Fin 131072) : Prop :=
  ∃ n : Fin 512, (Lb (ix2 n 0)).toNat = b.val ∧ (Lb (ix2 n 1)).toNat = l.val

open Classical in
/-- The loss gradient at `(b, l)`: the probability, less one at a positive pair. -/
def prob (b : Fin 128) (l : Fin 131072) : EReal :=
  Ideal.logistic (logit E W b l) + (if hit Lb b l then -1 else 0)

/-- The gradient with respect to the embeddings, at (b, d). -/
def gradIn (b : Fin 128) (d : Fin 768) : EReal := ∑ l : Fin 131072, prob E W Lb b l * W (ix2 l d)

/-- The updated weights, at (l, d). -/
def newW (l : Fin 131072) (d : Fin 768) : EReal :=
  W (ix2 l d) - lr (ix1 0) * ((∑ b : Fin 128, prob E W Lb b l * E (ix2 b d)) + wd * W (ix2 l d))

/-- The two results as arrays. -/
def gradArr : SE.Idx → EReal := fun i => gradIn E W Lb (i 0) (i 1)
def newWArr : SW.Idx → EReal := fun i => newW E W Lb lr (i 0) (i 1)

/-! ## The label axis in 64 chunks of 2048 -/

/-- Label `j` of chunk `t`. -/
def lrow (t : Fin 64) (j : Fin 2048) : Fin 131072 := ⟨t.val * 2048 + j.val, by have := t.isLt; have := j.isLt; omega⟩

/-- Chunk `t`'s share of the embedding gradient. -/
def chunkGrad (t : Fin 64) (b : Fin 128) (d : Fin 768) : EReal :=
  ∑ j : Fin 2048, prob E W Lb b (lrow t j) * W (ix2 (lrow t j) d)

/-- The same with the chunk a natural number (zero past the last chunk). -/
def chunkGradN (t : ℕ) (b : Fin 128) (d : Fin 768) : EReal :=
  if h : t < 64 then chunkGrad E W Lb ⟨t, h⟩ b d else 0

/-- The shares of the chunks of `t`'s half (chunks 32·⌊t/32⌋ … t) added up. -/
def accGrad (t : ℕ) (b : Fin 128) (d : Fin 768) : EReal :=
  ∑ q ∈ Finset.range (t % 32 + 1), chunkGradN E W Lb (32 * (t / 32) + q) b d

theorem accGrad_first (t : ℕ) (h : t % 32 = 0) (b : Fin 128) (d : Fin 768) :
    accGrad E W Lb t b d = chunkGradN E W Lb t b d := by
  unfold accGrad
  rw [h, Finset.sum_range_one]
  congr 1
  omega

theorem accGrad_next (t : ℕ) (h : ¬t % 32 = 0) (b : Fin 128) (d : Fin 768) :
    accGrad E W Lb t b d = accGrad E W Lb (t - 1) b d + chunkGradN E W Lb t b d := by
  unfold accGrad
  have h1 : (t - 1) % 32 + 1 = t % 32 := by omega
  have h2 : (t - 1) / 32 = t / 32 := by omega
  rw [Finset.sum_range_succ, h1, h2]
  congr 2
  omega

/-- A label is (chunk, position in the chunk): quotient and remainder by 2048. -/
def chunkEquiv : Fin 64 × Fin 2048 ≃ Fin 131072 where
  toFun p := lrow p.1 p.2
  invFun l := (⟨l.val / 2048, by have := l.isLt; omega⟩, ⟨l.val % 2048, by omega⟩)
  left_inv := fun ⟨t, j⟩ => by
    have := t.isLt; have := j.isLt
    apply Prod.ext <;> apply Fin.ext <;> simp only [lrow] <;> omega
  right_inv := fun l => by apply Fin.ext; simp only [lrow]; omega

/-- The label sum, chunk by chunk. -/
theorem gradIn_chunks (b : Fin 128) (d : Fin 768) : gradIn E W Lb b d = ∑ t : Fin 64, chunkGrad E W Lb t b d := by
  unfold gradIn chunkGrad
  rw [← Fintype.sum_prod_type' (f := fun t j => prob E W Lb b (lrow t j) * W (ix2 (lrow t j) d))]
  exact (Fintype.sum_equiv chunkEquiv _ _ (fun _ => rfl)).symm

/-- The two halves' totals add up to the whole gradient. -/
theorem gradIn_halves (b : Fin 128) (d : Fin 768) :
    gradIn E W Lb b d = accGrad E W Lb 31 b d + accGrad E W Lb 63 b d := by
  rw [gradIn_chunks]
  have e : ∀ t : Fin 64, chunkGrad E W Lb t b d = chunkGradN E W Lb t.val b d := fun t => by
    unfold chunkGradN; rw [dif_pos t.isLt]
  rw [Fintype.sum_congr _ _ e, Fin.sum_univ_eq_sum_range (fun t => chunkGradN E W Lb t b d) 64,
    show (64 : ℕ) = 32 + 32 from rfl, Finset.sum_range_add]
  unfold accGrad
  rfl

end Cert.Xmc

end
-- ==== Proof.Payloads.lean ====
/-
  The kernel body's arithmetic, read at an index over the extended reals.
-/
import proofs.«427815_j37340445672285_2_alg».proof.Proof.Gen.KernelIdeal.Skeleton
import proofs.«427815_j37340445672285_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Xmc.Payload

open Idealize.ShloMosaic Idealize.ShloMosaic.ValueIdx Cert.Xmc
open Cert.KernelIdeal Cert.KernelIdeal.Gen

namespace Aux

/-! ## The logits' product: rows of the embeddings against rows of the weight block -/

theorem lhs_logit_0 (i : S128x2048.Idx) (q : dot_S128x768_S2048x768_S128x2048_1_1_0_0_n_n.contr.Idx) :
    (dot_S128x768_S2048x768_S128x2048_1_1_0_0_n_n.lhsIdx i q 0).val = (i 0).val := by
  unfold DotDims.lhsIdx
  rw [dif_neg (show ¬(0 : Fin S128x768.rank) ∈ dot_S128x768_S2048x768_S128x2048_1_1_0_0_n_n.lhsBatch by decide), dif_pos (show (0 : Fin S128x768.rank) ∈ dot_S128x768_S2048x768_S128x2048_1_1_0_0_n_n.lhsNonContracting by decide)]
  rfl
theorem lhs_logit_1 (i : S128x2048.Idx) (q : dot_S128x768_S2048x768_S128x2048_1_1_0_0_n_n.contr.Idx) :
    (dot_S128x768_S2048x768_S128x2048_1_1_0_0_n_n.lhsIdx i q 1).val = (q ⟨0, by decide⟩).val :=
  dot_S128x768_S2048x768_S128x2048_1_1_0_0_n_n.lhsIdx_val_of_single rfl i q
theorem rhs_logit_0 (i : S128x2048.Idx) (q : dot_S128x768_S2048x768_S128x2048_1_1_0_0_n_n.contr.Idx) :
    (dot_S128x768_S2048x768_S128x2048_1_1_0_0_n_n.rhsIdx i q 0).val = (i 1).val := by
  unfold DotDims.rhsIdx
  rw [dif_neg (show ¬(0 : Fin S2048x768.rank) ∈ dot_S128x768_S2048x768_S128x2048_1_1_0_0_n_n.rhsBatch by decide), dif_pos (show (0 : Fin S2048x768.rank) ∈ dot_S128x768_S2048x768_S128x2048_1_1_0_0_n_n.rhsNonContracting by decide)]
  rfl
theorem rhs_logit_1 (i : S128x2048.Idx) (q : dot_S128x768_S2048x768_S128x2048_1_1_0_0_n_n.contr.Idx) :
    (dot_S128x768_S2048x768_S128x2048_1_1_0_0_n_n.rhsIdx i q 1).val = (q ⟨0, by decide⟩).val :=
  dot_S128x768_S2048x768_S128x2048_1_1_0_0_n_n.rhsIdx_val_of_single rfl i q

/-- Entry (b, j) of the product is the inner product of row b of the left factor with row j of the right. -/
theorem logit_matmul_apply (prec : Option ContractPrecision) (e : FVec Ideal S128x768 .f32) (w : FVec Ideal S2048x768 .f32)
    (b : Fin 128) (j : Fin 2048) :
    matmul (F := Ideal) dot_S128x768_S2048x768_S128x2048_1_1_0_0_n_n prec e w (constant (F := Ideal) S128x2048 .f32 0x00000000#32) (ix2 b j)
      = ∑ k : Fin 768, e (ix2 b k) * w (ix2 j k) := by
  refine (Ideal.matmul_constant_zero_apply dot_S128x768_S2048x768_S128x2048_1_1_0_0_n_n prec e w (ix2 b j)).trans ?_
  rw [← Equiv.sum_comp (contrEquiv1 dot_S128x768_S2048x768_S128x2048_1_1_0_0_n_n 768 rfl rfl).symm]
  refine Finset.sum_congr rfl fun k _ => ?_
  have hk := contrEquiv1_symm_val dot_S128x768_S2048x768_S128x2048_1_1_0_0_n_n 768 rfl rfl k
  have el : dot_S128x768_S2048x768_S128x2048_1_1_0_0_n_n.lhsIdx (ix2 b j) ((contrEquiv1 dot_S128x768_S2048x768_S128x2048_1_1_0_0_n_n 768 rfl rfl).symm k) = ix2 b k := funext fun a => Fin.ext (by
    match a with
    | ⟨0, _⟩ => exact lhs_logit_0 _ _
    | ⟨1, _⟩ => exact (lhs_logit_1 _ _).trans hk)
  have er : dot_S128x768_S2048x768_S128x2048_1_1_0_0_n_n.rhsIdx (ix2 b j) ((contrEquiv1 dot_S128x768_S2048x768_S128x2048_1_1_0_0_n_n 768 rfl rfl).symm k) = ix2 j k := funext fun a => Fin.ext (by
    match a with
    | ⟨0, _⟩ => exact rhs_logit_0 _ _
    | ⟨1, _⟩ => exact (rhs_logit_1 _ _).trans hk)
  rw [el, er]

/-! ## The pair count's product: one-hot rows against one-hot columns -/

theorem lhs_count_0 (i : S128x2048.Idx) (q : dot_S128x512_S2048x512_S128x2048_1_1_0_0_n_n.contr.Idx) :
    (dot_S128x512_S2048x512_S128x2048_1_1_0_0_n_n.lhsIdx i q 0).val = (i 0).val := by
  unfold DotDims.lhsIdx
  rw [dif_neg (show ¬(0 : Fin S128x512.rank) ∈ dot_S128x512_S2048x512_S128x2048_1_1_0_0_n_n.lhsBatch by decide), dif_pos (show (0 : Fin S128x512.rank) ∈ dot_S128x512_S2048x512_S128x2048_1_1_0_0_n_n.lhsNonContracting by decide)]
  rfl
theorem lhs_count_1 (i : S128x2048.Idx) (q : dot_S128x512_S2048x512_S128x2048_1_1_0_0_n_n.contr.Idx) :
    (dot_S128x512_S2048x512_S128x2048_1_1_0_0_n_n.lhsIdx i q 1).val = (q ⟨0, by decide⟩).val :=
  dot_S128x512_S2048x512_S128x2048_1_1_0_0_n_n.lhsIdx_val_of_single rfl i q
theorem rhs_count_0 (i : S128x2048.Idx) (q : dot_S128x512_S2048x512_S128x2048_1_1_0_0_n_n.contr.Idx) :
    (dot_S128x512_S2048x512_S128x2048_1_1_0_0_n_n.rhsIdx i q 0).val = (i 1).val := by
  unfold DotDims.rhsIdx
  rw [dif_neg (show ¬(0 : Fin S2048x512.rank) ∈ dot_S128x512_S2048x512_S128x2048_1_1_0_0_n_n.rhsBatch by decide), dif_pos (show (0 : Fin S2048x512.rank) ∈ dot_S128x512_S2048x512_S128x2048_1_1_0_0_n_n.rhsNonContracting by decide)]
  rfl
theorem rhs_count_1 (i : S128x2048.Idx) (q : dot_S128x512_S2048x512_S128x2048_1_1_0_0_n_n.contr.Idx) :
    (dot_S128x512_S2048x512_S128x2048_1_1_0_0_n_n.rhsIdx i q 1).val = (q ⟨0, by decide⟩).val :=
  dot_S128x512_S2048x512_S128x2048_1_1_0_0_n_n.rhsIdx_val_of_single rfl i q

/-- Entry (b, j) of the product is the sum over the pairs of the row entry (b, n) times the column entry (j, n). -/
theorem count_matmul_apply (prec : Option ContractPrecision) (r : FVec Ideal S128x512 .bf16) (c : FVec Ideal S2048x512 .bf16)
    (b : Fin 128) (j : Fin 2048) :
    matmul (F := Ideal) dot_S128x512_S2048x512_S128x2048_1_1_0_0_n_n prec r c (constant (F := Ideal) S128x2048 .f32 0x00000000#32) (ix2 b j)
      = ∑ n : Fin 512, r (ix2 b n) * c (ix2 j n) := by
  refine (Ideal.matmul_constant_zero_apply dot_S128x512_S2048x512_S128x2048_1_1_0_0_n_n prec r c (ix2 b j)).trans ?_
  rw [← Equiv.sum_comp (contrEquiv1 dot_S128x512_S2048x512_S128x2048_1_1_0_0_n_n 512 rfl rfl).symm]
  refine Finset.sum_congr rfl fun k _ => ?_
  have hk := contrEquiv1_symm_val dot_S128x512_S2048x512_S128x2048_1_1_0_0_n_n 512 rfl rfl k
  have el : dot_S128x512_S2048x512_S128x2048_1_1_0_0_n_n.lhsIdx (ix2 b j) ((contrEquiv1 dot_S128x512_S2048x512_S128x2048_1_1_0_0_n_n 512 rfl rfl).symm k) = ix2 b k := funext fun a => Fin.ext (by
    match a with
    | ⟨0, _⟩ => exact lhs_count_0 _ _
    | ⟨1, _⟩ => exact (lhs_count_1 _ _).trans hk)
  have er : dot_S128x512_S2048x512_S128x2048_1_1_0_0_n_n.rhsIdx (ix2 b j) ((contrEquiv1 dot_S128x512_S2048x512_S128x2048_1_1_0_0_n_n 512 rfl rfl).symm k) = ix2 j k := funext fun a => Fin.ext (by
    match a with
    | ⟨0, _⟩ => exact rhs_count_0 _ _
    | ⟨1, _⟩ => exact (rhs_count_1 _ _).trans hk)
  rw [el, er]

/-! ## The embedding gradient's product: the loss-gradient block against the weight block -/

theorem lhs_grad_0 (i : S128x768.Idx) (q : dot_S128x2048_S2048x768_S128x768_1_0_0_1_n_n.contr.Idx) :
    (dot_S128x2048_S2048x768_S128x768_1_0_0_1_n_n.lhsIdx i q 0).val = (i 0).val := by
  unfold DotDims.lhsIdx
  rw [dif_neg (show ¬(0 : Fin S128x2048.rank) ∈ dot_S128x2048_S2048x768_S128x768_1_0_0_1_n_n.lhsBatch by decide), dif_pos (show (0 : Fin S128x2048.rank) ∈ dot_S128x2048_S2048x768_S128x768_1_0_0_1_n_n.lhsNonContracting by decide)]
  rfl
theorem lhs_grad_1 (i : S128x768.Idx) (q : dot_S128x2048_S2048x768_S128x768_1_0_0_1_n_n.contr.Idx) :
    (dot_S128x2048_S2048x768_S128x768_1_0_0_1_n_n.lhsIdx i q 1).val = (q ⟨0, by decide⟩).val :=
  dot_S128x2048_S2048x768_S128x768_1_0_0_1_n_n.lhsIdx_val_of_single rfl i q
theorem rhs_grad_0 (i : S128x768.Idx) (q : dot_S128x2048_S2048x768_S128x768_1_0_0_1_n_n.contr.Idx) :
    (dot_S128x2048_S2048x768_S128x768_1_0_0_1_n_n.rhsIdx i q 0).val = (q ⟨0, by decide⟩).val :=
  dot_S128x2048_S2048x768_S128x768_1_0_0_1_n_n.rhsIdx_val_of_single rfl i q
theorem rhs_grad_1 (i : S128x768.Idx) (q : dot_S128x2048_S2048x768_S128x768_1_0_0_1_n_n.contr.Idx) :
    (dot_S128x2048_S2048x768_S128x768_1_0_0_1_n_n.rhsIdx i q 1).val = (i 1).val := by
  unfold DotDims.rhsIdx
  rw [dif_neg (show ¬(1 : Fin S2048x768.rank) ∈ dot_S128x2048_S2048x768_S128x768_1_0_0_1_n_n.rhsBatch by decide), dif_pos (show (1 : Fin S2048x768.rank) ∈ dot_S128x2048_S2048x768_S128x768_1_0_0_1_n_n.rhsNonContracting by decide)]
  rfl

/-- Entry (b, d) of the product is the sum over the chunk's labels of the left entry (b, j) times the right entry (j, d). -/
theorem grad_matmul_apply (prec : Option ContractPrecision) (p : FVec Ideal S128x2048 .f32) (w : FVec Ideal S2048x768 .f32)
    (b : Fin 128) (d : Fin 768) :
    matmul (F := Ideal) dot_S128x2048_S2048x768_S128x768_1_0_0_1_n_n prec p w (constant (F := Ideal) S128x768 .f32 0x00000000#32) (ix2 b d)
      = ∑ j : Fin 2048, p (ix2 b j) * w (ix2 j d) := by
  refine (Ideal.matmul_constant_zero_apply dot_S128x2048_S2048x768_S128x768_1_0_0_1_n_n prec p w (ix2 b d)).trans ?_
  rw [← Equiv.sum_comp (contrEquiv1 dot_S128x2048_S2048x768_S128x768_1_0_0_1_n_n 2048 rfl rfl).symm]
  refine Finset.sum_congr rfl fun k _ => ?_
  have hk := contrEquiv1_symm_val dot_S128x2048_S2048x768_S128x768_1_0_0_1_n_n 2048 rfl rfl k
  have el : dot_S128x2048_S2048x768_S128x768_1_0_0_1_n_n.lhsIdx (ix2 b d) ((contrEquiv1 dot_S128x2048_S2048x768_S128x768_1_0_0_1_n_n 2048 rfl rfl).symm k) = ix2 b k := funext fun a => Fin.ext (by
    match a with
    | ⟨0, _⟩ => exact lhs_grad_0 _ _
    | ⟨1, _⟩ => exact (lhs_grad_1 _ _).trans hk)
  have er : dot_S128x2048_S2048x768_S128x768_1_0_0_1_n_n.rhsIdx (ix2 b d) ((contrEquiv1 dot_S128x2048_S2048x768_S128x768_1_0_0_1_n_n 2048 rfl rfl).symm k) = ix2 k d := funext fun a => Fin.ext (by
    match a with
    | ⟨0, _⟩ => exact (rhs_grad_0 _ _).trans hk
    | ⟨1, _⟩ => exact rhs_grad_1 _ _)
  rw [el, er]

/-! ## The weight gradient's product: the loss-gradient block, transposed, against the embeddings -/

theorem lhs_wgrad_0 (i : S2048x768.Idx) (q : dot_S128x2048_S128x768_S2048x768_0_0_1_1_n_n.contr.Idx) :
    (dot_S128x2048_S128x768_S2048x768_0_0_1_1_n_n.lhsIdx i q 0).val = (q ⟨0, by decide⟩).val :=
  dot_S128x2048_S128x768_S2048x768_0_0_1_1_n_n.lhsIdx_val_of_single rfl i q
theorem lhs_wgrad_1 (i : S2048x768.Idx) (q : dot_S128x2048_S128x768_S2048x768_0_0_1_1_n_n.contr.Idx) :
    (dot_S128x2048_S128x768_S2048x768_0_0_1_1_n_n.lhsIdx i q 1).val = (i 0).val := by
  unfold DotDims.lhsIdx
  rw [dif_neg (show ¬(1 : Fin S128x2048.rank) ∈ dot_S128x2048_S128x768_S2048x768_0_0_1_1_n_n.lhsBatch by decide), dif_pos (show (1 : Fin S128x2048.rank) ∈ dot_S128x2048_S128x768_S2048x768_0_0_1_1_n_n.lhsNonContracting by decide)]
  rfl
theorem rhs_wgrad_0 (i : S2048x768.Idx) (q : dot_S128x2048_S128x768_S2048x768_0_0_1_1_n_n.contr.Idx) :
    (dot_S128x2048_S128x768_S2048x768_0_0_1_1_n_n.rhsIdx i q 0).val = (q ⟨0, by decide⟩).val :=
  dot_S128x2048_S128x768_S2048x768_0_0_1_1_n_n.rhsIdx_val_of_single rfl i q
theorem rhs_wgrad_1 (i : S2048x768.Idx) (q : dot_S128x2048_S128x768_S2048x768_0_0_1_1_n_n.contr.Idx) :
    (dot_S128x2048_S128x768_S2048x768_0_0_1_1_n_n.rhsIdx i q 1).val = (i 1).val := by
  unfold DotDims.rhsIdx
  rw [dif_neg (show ¬(1 : Fin S128x768.rank) ∈ dot_S128x2048_S128x768_S2048x768_0_0_1_1_n_n.rhsBatch by decide), dif_pos (show (1 : Fin S128x768.rank) ∈ dot_S128x2048_S128x768_S2048x768_0_0_1_1_n_n.rhsNonContracting by decide)]
  rfl

/-- Entry (j, d) of the product is the sum over the batch of the left entry (b, j) times the right entry (b, d). -/
theorem wgrad_matmul_apply (prec : Option ContractPrecision) (p : FVec Ideal S128x2048 .f32) (e : FVec Ideal S128x768 .f32)
    (j : Fin 2048) (d : Fin 768) :
    matmul (F := Ideal) dot_S128x2048_S128x768_S2048x768_0_0_1_1_n_n prec p e (constant (F := Ideal) S2048x768 .f32 0x00000000#32) (ix2 j d)
      = ∑ b : Fin 128, p (ix2 b j) * e (ix2 b d) := by
  refine (Ideal.matmul_constant_zero_apply dot_S128x2048_S128x768_S2048x768_0_0_1_1_n_n prec p e (ix2 j d)).trans ?_
  rw [← Equiv.sum_comp (contrEquiv1 dot_S128x2048_S128x768_S2048x768_0_0_1_1_n_n 128 rfl rfl).symm]
  refine Finset.sum_congr rfl fun k _ => ?_
  have hk := contrEquiv1_symm_val dot_S128x2048_S128x768_S2048x768_0_0_1_1_n_n 128 rfl rfl k
  have el : dot_S128x2048_S128x768_S2048x768_0_0_1_1_n_n.lhsIdx (ix2 j d) ((contrEquiv1 dot_S128x2048_S128x768_S2048x768_0_0_1_1_n_n 128 rfl rfl).symm k) = ix2 k j := funext fun a => Fin.ext (by
    match a with
    | ⟨0, _⟩ => exact (lhs_wgrad_0 _ _).trans hk
    | ⟨1, _⟩ => exact lhs_wgrad_1 _ _)
  have er : dot_S128x2048_S128x768_S2048x768_0_0_1_1_n_n.rhsIdx (ix2 j d) ((contrEquiv1 dot_S128x2048_S128x768_S2048x768_0_0_1_1_n_n 128 rfl rfl).symm k) = ix2 k d := funext fun a => Fin.ext (by
    match a with
    | ⟨0, _⟩ => exact (rhs_wgrad_0 _ _).trans hk
    | ⟨1, _⟩ => exact rhs_wgrad_1 _ _)
  rw [el, er]

/-! ## Arithmetic of the one-hot entries -/

/-- The one-bit comparison word, widened and read signed as a real, is one when the words agree and zero otherwise. -/
theorem eqWord_real (x y : BitVec 32) :
    ((((BitVec.ofBool (x == y)).setWidth 32).toInt : ℝ) : EReal) = if x = y then 1 else 0 := by
  by_cases h : x = y
  · subst h
    rw [if_pos rfl, beq_self_eq_true]
    have : ((BitVec.ofBool true).setWidth 32).toInt = 1 := by decide
    rw [this]; simp
  · rw [if_neg h]
    have hb : (x == y) = false := by simpa using h
    rw [hb]
    have : ((BitVec.ofBool false).setWidth 32).toInt = 0 := by decide
    rw [this]; simp

/-- A small number's 32-bit word equals a word exactly when that word reads as the number. -/
theorem ofNat_eq_iff (m : ℕ) (hm : m < 2 ^ 32) (w : BitVec 32) : BitVec.ofNat 32 m = w ↔ w.toNat = m := by
  constructor
  · intro h
    rw [← h, BitVec.toNat_ofNat, Nat.mod_eq_of_lt hm]
  · intro h
    rw [← h, BitVec.ofNat_toNat, BitVec.setWidth_eq]

/-- The label word of column j of the chunk at grid point (c, t): no wrap, since the label is below 131072. -/
theorem labelWord (c t j : ℕ) (hc : c < 2) (ht : t < 32) (hj : j < 2048) :
    BitVec.ofNat 32 j + (BitVec.ofNat 32 c * 32#32 + BitVec.ofNat 32 t) * 2048#32
      = BitVec.ofNat 32 ((c * 32 + t) * 2048 + j) := by
  apply BitVec.eq_of_toNat_eq
  simp only [BitVec.toNat_add, BitVec.toNat_mul, BitVec.toNat_ofNat]
  omega

/-- A product of two indicators is the indicator of the conjunction. -/
theorem ind_mul_ind (P Q : Prop) [Decidable P] [Decidable Q] :
    (if P then (1 : EReal) else 0) * (if Q then (1 : EReal) else 0) = if P ∧ Q then 1 else 0 := by
  by_cases hP : P <;> by_cases hQ : Q <;> simp [hP, hQ]

/-- A count of indicators, capped at one, is the indicator that some index qualifies. -/
theorem min_sum_ind_one {ι : Type} [Fintype ι] (P : ι → Prop) [DecidablePred P] [Decidable (∃ n, P n)] :
    min (∑ n : ι, (if P n then (1 : EReal) else 0)) 1 = if ∃ n, P n then 1 else 0 := by
  by_cases h : ∃ n, P n
  · rw [if_pos h]
    obtain ⟨n0, hn0⟩ := h
    refine min_eq_right ?_
    have hle := Finset.single_le_sum (f := fun n : ι => if P n then (1 : EReal) else 0) (s := Finset.univ)
      (fun n _ => by split <;> simp) (Finset.mem_univ n0)
    simpa [hn0] using hle
  · rw [if_neg h]
    have hz : ∀ n : ι, (if P n then (1 : EReal) else 0) = 0 := fun n => if_neg (fun hn => h ⟨n, hn⟩)
    simp [hz]

/-- Zero less the capped count: minus one when some index qualifies, zero otherwise. -/
theorem zero_sub_min_sum_ind {ι : Type} [Fintype ι] (P : ι → Prop) [DecidablePred P] [Decidable (∃ n, P n)] :
    (0 : EReal) - min (∑ n : ι, (if P n then (1 : EReal) else 0)) 1 = if ∃ n, P n then -1 else 0 := by
  rw [min_sum_ind_one]
  by_cases h : ∃ n, P n
  · rw [if_pos h, if_pos h, zero_sub]
  · rw [if_neg h, if_neg h, sub_zero]

/-- The same, whichever way the conditions are decided. -/
theorem zero_sub_min_sum_ind' {ι : Type} [Fintype ι] (P : ι → Prop) {dP : DecidablePred P} {dE : Decidable (∃ n, P n)} :
    (0 : EReal) - min (∑ n : ι, (if P n then (1 : EReal) else 0)) 1 = if ∃ n, P n then -1 else 0 :=
  zero_sub_min_sum_ind P

/-! ## Pointwise operations read at an index, and two words as numbers -/

theorem cmpi_eq_apply {s : Shape} {w : ℕ} (x y : IVec s w) (i : s.Idx) :
    cmpi .eq x y i = BitVec.ofBool (x i == y i) := rfl
theorem addi_apply {s : Shape} {w : ℕ} (x y : IVec s w) (i : s.Idx) : addi x y i = x i + y i := rfl
theorem logistic_apply {s : Shape} (x : FVec Ideal s .f32) (i : s.Idx) : logistic x i = Ideal.logistic (x i) := rfl
theorem sitofp_ideal {w : ℕ} (x : BitVec w) : FloatOps.sitofp (F := Ideal) .f32 x = ((x.toInt : ℝ) : EReal) := rfl
theorem scalar_ofBits_ideal (b : BitVec 32) : Scalar.ofBits (F := Ideal) .f32 b = Ideal.ofBits .f32 b := rfl

/-- The binary32 pattern of one denotes one. -/
theorem ofBits_one_f32 : Ideal.ofBits .f32 0x3F800000#32 = 1 := by
  simp [Ideal.ofBits, Ideal.ieee]
  rw [← EReal.coe_mul, ← EReal.coe_one, EReal.coe_eq_coe_iff]
  norm_num

theorem scalar_muli_def {w : ℕ} (x y : BitVec w) : Scalar.muli x y = x * y := rfl
theorem scalar_addi_def {w : ℕ} (x y : BitVec w) : Scalar.addi x y = x + y := rfl

/-! ## The payloads over vectors of floats and words -/

/-- The one-hot of the rows at (b, n): the comparison of b's word with pair n's row word, read as a real. -/
theorem rowHot_aux (rows : IVec S1x512 32) (b : Fin 128) (n : Fin 512) :
    k0_pay3 (F := Ideal) rows (ix2 b n) = if (rows (ix2 0 n)).toNat = b.val then (1 : EReal) else 0 := by
  unfold k0_pay3
  simp only [shapeCast_self, truncf_apply, sitofp_apply, sitofp_ideal, extui_apply, cmpi_eq_apply,
    broadcastTo_1b_ab_apply]
  rw [iota_single_apply, eqWord_real]
  exact if_congr (ofNat_eq_iff b.val (by have := b.isLt; omega) _) rfl rfl

open Classical in
/-- The loss-gradient block at (b, j): the logistic of the logit, and zero less the capped count of the pairs whose row
    is b and whose column is the label of column j; each summand of the count is a product of two indicators. -/
theorem probBlock_aux (i : grid0.Coords) (e : FVec Ideal S128x768 .f32) (w : FVec Ideal S2048x768 .f32)
    (rh : FVec Ideal S128x512 .bf16) (rows cols : IVec S1x512 32)
    (hrh : ∀ (b : Fin 128) (n : Fin 512), rh (ix2 b n) = if (rows (ix2 0 n)).toNat = b.val then (1 : EReal) else 0)
    (b : Fin 128) (j : Fin 2048) :
    k0_pay4 (F := Ideal) i e w rh cols (ix2 b j)
      = Ideal.logistic (∑ k : Fin 768, e (ix2 b k) * w (ix2 j k))
        + (if ∃ n : Fin 512, (rows (ix2 0 n)).toNat = b.val
              ∧ (cols (ix2 0 n)).toNat = ((i 0).val * 32 + (i 1).val) * 2048 + j.val then -1 else 0) := by
  have h0 : (i 0).val < 2 := (i 0).isLt
  have h1 : (i 1).val < 32 := (i 1).isLt
  have hj : j.val < 2048 := j.isLt
  unfold k0_pay4
  simp only [addf_apply, subf_apply, minimumf_apply, broadcast_apply, logistic_apply, logit_matmul_apply, count_matmul_apply,
    truncf_apply, sitofp_apply, sitofp_ideal, extui_apply, cmpi_eq_apply, addi_apply, broadcastTo_1b_ab_apply, shapeCast_self,
    scalar_ofBits_ideal, Ideal.ofBits_zero_f32, ofBits_one_f32, scalar_muli_def, scalar_addi_def]
  congr 1
  have hsum : ∀ n : Fin 512,
      rh (ix2 b n) * ((((BitVec.ofBool (iota .tc S2048x512 32 [0] iota_S2048x512_d0_w32 (ix2 j n)
          + (BitVec.ofNat 32 (i 0).val * 32#32 + BitVec.ofNat 32 (i 1).val) * 2048#32 == cols (ix2 0 n))).setWidth 32).toInt : ℝ) : EReal)
        = if (rows (ix2 0 n)).toNat = b.val
              ∧ (cols (ix2 0 n)).toNat = ((i 0).val * 32 + (i 1).val) * 2048 + j.val then 1 else 0 := fun n => by
    have hw : iota .tc S2048x512 32 [0] iota_S2048x512_d0_w32 (ix2 j n)
          + (BitVec.ofNat 32 (i 0).val * 32#32 + BitVec.ofNat 32 (i 1).val) * 2048#32
        = BitVec.ofNat 32 (((i 0).val * 32 + (i 1).val) * 2048 + j.val) := by
      rw [iota_single_apply]
      exact labelWord _ _ _ h0 h1 hj
    rw [hrh b n, hw, eqWord_real, ind_mul_ind]
    exact if_congr (and_congr Iff.rfl (ofNat_eq_iff _ (by omega) _)) rfl rfl
  rw [Finset.sum_congr rfl (fun n _ => hsum n)]
  exact zero_sub_min_sum_ind' _

/-- The accumulator block at (0, b, d): the block it held at (0, b, d) plus entry (b, d) of the gradient's product. -/
theorem accBlock_aux (i : grid0.Coords) (e : FVec Ideal S128x768 .f32) (w : FVec Ideal S2048x768 .f32)
    (rh : FVec Ideal S128x512 .bf16) (cols : IVec S1x512 32) (acc : FVec Ideal S1x128x768 .f32)
    (b : Fin 128) (d : Fin 768) :
    k0_pay5 (F := Ideal) i e w rh cols acc (ix3 0 b d)
      = acc (ix3 0 b d) + ∑ j : Fin 2048, k0_pay4 (F := Ideal) i e w rh cols (ix2 b j) * w (ix2 j d) := by
  unfold k0_pay5
  simp only [shapeCast_ab_1ab_apply, addf_apply, shapeCast_1ab_ab_apply, grad_matmul_apply]

/-- The updated weights at (j, d): the learning rate is the one entry of its block, the decay coefficient the named word. -/
theorem newBlock_aux (e : FVec Ideal S128x768 .f32) (w : FVec Ideal S2048x768 .f32) (p : FVec Ideal S128x2048 .f32)
    (lr : FVec Ideal S1x1 .f32) (j : Fin 2048) (d : Fin 768) :
    k0_pay1 (F := Ideal) e w p lr (ix2 j d)
      = w (ix2 j d) - lr (ix2 0 0) * ((∑ b : Fin 128, p (ix2 b j) * e (ix2 b d)) + wd * w (ix2 j d)) := by
  have hlr : extractAt ![0, 0] lr inpos_S1x1_p0_0 = lr (ix2 0 0) :=
    congrArg lr (funext fun a => by match a with | ⟨0, _⟩ => rfl | ⟨1, _⟩ => rfl)
  unfold k0_pay1 Cert.Xmc.wd
  simp only [subf_apply, mulf_apply, addf_apply, broadcast_apply, wgrad_matmul_apply, scalar_ofBits_ideal, hlr]

end Aux

open Aux

/-- The block a half's first chunk stores before accumulating is zero. -/
theorem zeroBlock_apply (y : S1x128x768.Idx) : k0_pay2 (F := Ideal) y = 0 := by
  unfold k0_pay2
  exact Ideal.ofBits_zero_f32

/-- The cached one-hot of the rows: entry (b, n) is one exactly when pair n's row is b. -/
theorem rowHot_apply (rows : Vec Ideal S1x512 .i32) (b : Fin 128) (n : Fin 512) :
    k0_pay3 (F := Ideal) rows (ix2 b n) = if (rows (ix2 0 n)).toNat = b.val then (1 : EReal) else 0 :=
  rowHot_aux rows b n

open Classical in
/-- The loss-gradient block of a chunk: the logistic of the block's logits, less one where (b, label) is a listed pair;
    the label of column j of the chunk at grid point (core, chunk) is ((core·32 + chunk)·2048 + j). -/
theorem probBlock_apply (i : grid0.Coords) (e : Vec Ideal S128x768 .f32) (w : Vec Ideal S2048x768 .f32)
    (rh : Vec Ideal S128x512 .bf16) (rows cols : Vec Ideal S1x512 .i32)
    (hrh : ∀ (b : Fin 128) (n : Fin 512), rh (ix2 b n) = if (rows (ix2 0 n)).toNat = b.val then (1 : EReal) else 0)
    (b : Fin 128) (j : Fin 2048) :
    k0_pay4 (F := Ideal) i e w rh cols (ix2 b j)
      = Ideal.logistic (∑ k : Fin 768, e (ix2 b k) * w (ix2 j k))
        + (if ∃ n : Fin 512, (rows (ix2 0 n)).toNat = b.val
              ∧ (cols (ix2 0 n)).toNat = ((i 0).val * 32 + (i 1).val) * 2048 + j.val then -1 else 0) :=
  probBlock_aux i e w rh rows cols hrh b j

/-- The accumulator after a chunk: what it held plus the chunk's share. -/
theorem accBlock_apply (i : grid0.Coords) (e : Vec Ideal S128x768 .f32) (w : Vec Ideal S2048x768 .f32)
    (rh : Vec Ideal S128x512 .bf16) (cols : Vec Ideal S1x512 .i32) (acc : Vec Ideal S1x128x768 .f32)
    (b : Fin 128) (d : Fin 768) :
    k0_pay5 (F := Ideal) i e w rh cols acc (ix3 0 b d)
      = acc (ix3 0 b d) + ∑ j : Fin 2048, k0_pay4 (F := Ideal) i e w rh cols (ix2 b j) * w (ix2 j d) :=
  accBlock_aux i e w rh cols acc b d

/-- The updated weight block. -/
theorem newBlock_apply (e : Vec Ideal S128x768 .f32) (w : Vec Ideal S2048x768 .f32) (p : FVec Ideal S128x2048 .f32)
    (lr : Vec Ideal S1x1 .f32) (j : Fin 2048) (d : Fin 768) :
    k0_pay1 (F := Ideal) e w p lr (ix2 j d)
      = w (ix2 j d) - lr (ix2 0 0) * ((∑ b : Fin 128, p (ix2 b j) * e (ix2 b d)) + wd * w (ix2 j d)) :=
  newBlock_aux e w p lr j d

end Cert.Xmc.Payload

end
-- ==== Proof.Accum.lean ====
/-
  What the staging buffers hold after grid point n, by induction on n: the cache holds the one-hot of the rows from
  each half's first chunk on; the accumulator holds the sum of the shares of the chunks of n's half up to n (a
  half's first chunk starts it from zero, every other adds to what the chunk before left); the weight block is the
  updated weights on chunk n's 2048 labels.
-/
import proofs.«427815_j37340445672285_2_alg».proof.Proof.Pieces
import proofs.«427815_j37340445672285_2_alg».proof.Proof.Blocks
import proofs.«427815_j37340445672285_2_alg».proof.Proof.Payloads
import proofs.«427815_j37340445672285_2_alg».proof.Proof.Spec

set_option maxRecDepth 16384

noncomputable section

namespace Cert.Xmc.Accum

open Idealize.ShloMosaic Idealize.ShloMosaic.TcCoe Idealize.SL.Sem Idealize.ShloMosaic.ValueIdx
open Cert.KernelIdeal Cert.KernelIdeal.Gen Cert.Xmc Cert.Xmc.Blocks

/-! ## The cache, at any float instance -/

section
variable {F : FTy → Type} [FloatOps F]
variable (m : (ℓ : Loc nD τ sig) → Buf (Elt F) ℓ)

theorem cache_eq (c : Dev nD) : ∀ (n : ℕ) (h : n < cfg0.N), (outsAt0 m c n h).2.2 = k0_pay3 (rblk m c ⟨n, h⟩) := by
  intro n
  induction n with
  | zero =>
    intro h
    have h0 : (⟨0, h⟩ : Fin cfg0.N).val % 32 = 0 := rfl
    rw [outsAt0_A m c ⟨0, h⟩ h0]
    dsimp only
    exact Pieces.scratch_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)
  | succ n ih =>
    intro h
    by_cases h0 : (⟨n + 1, h⟩ : Fin cfg0.N).val % 32 = 0
    · rw [outsAt0_A m c ⟨n + 1, h⟩ h0]
      dsimp only
      exact Pieces.scratch_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)
    · rw [outsAt0_B m c ⟨n + 1, h⟩ h0]
      dsimp only
      unfold sout0_B_0
      show (outsAt0 m c n _).2.2 = _
      rw [ih (Nat.lt_of_succ_lt h)]
      exact congrArg k0_pay3 (rblk_const m c _ _)

end

/-! ## The values, over the extended reals -/

variable (m : (ℓ : Loc nD τ sig) → Buf (Elt Ideal) ℓ)

/-- The argument arrays. -/
abbrev E (c : Dev nD) : SE.Idx → EReal := m ((c : Thread nD τ).loc main_arg0)
abbrev W (c : Dev nD) : SW.Idx → EReal := m ((c : Thread nD τ).loc main_arg1)
abbrev Lb (c : Dev nD) : IVec SL 32 := m ((c : Thread nD τ).loc main_arg2)
abbrev lr (c : Dev nD) : SR.Idx → EReal := m ((c : Thread nD τ).loc main_arg3)

theorem lt64 (t : Fin cfg0.N) : t.val < 64 := lt_of_lt_of_eq t.isLt (show cfg0.N = 64 from N_0)

open Classical in
/-- The chunk's loss-gradient block is the specification's, on the chunk's labels. -/
theorem pblk_apply (c : Dev nD) (t : Fin cfg0.N) (b : Fin 128) (j : Fin 2048) :
    Pieces.pblk (F := Ideal) (grid0.coords t) (eblk m c t) (wblk m c t) (k0_pay3 (rblk m c t)) (cblk m c t) (ix2 b j)
      = prob (E m c) (W m c) (Lb m c) b (lrow ⟨t.val, lt64 t⟩ j) := by
  unfold Pieces.pblk
  rw [Payload.probBlock_apply (grid0.coords t) (eblk m c t) (wblk m c t) (k0_pay3 (rblk m c t)) (rblk m c t) (cblk m c t)
    (fun b n => Payload.rowHot_apply (rblk m c t) b n) b j]
  unfold prob logit
  have hsum : (∑ k : Fin 768, eblk m c t (ix2 b k) * wblk m c t (ix2 j k))
      = ∑ k : Fin 768, E m c (ix2 b k) * W m c (ix2 (lrow ⟨t.val, lt64 t⟩ j) k) :=
    Finset.sum_congr rfl fun k _ => by rw [eblk_apply, wblk_apply m c t j k (lrow ⟨t.val, lt64 t⟩ j) rfl]
  have hiff : (∃ n : Fin 512, (rblk m c t (ix2 0 n)).toNat = b.val
        ∧ (cblk m c t (ix2 0 n)).toNat = ((grid0.coords t 0).val * 32 + (grid0.coords t 1).val) * 2048 + j.val)
      ↔ hit (Lb m c) b (lrow ⟨t.val, lt64 t⟩ j) := by
    obtain ⟨-, -, -, -, -, -, -, -, -, -, -, -, -, -, -, g0, g1⟩ := idx_facts t
    have hl : (lrow ⟨t.val, lt64 t⟩ j).val = t.val * 2048 + j.val := rfl
    unfold hit
    constructor
    · rintro ⟨n, h1, h2⟩
      rw [rblk_apply] at h1; rw [cblk_apply] at h2
      exact ⟨n, h1, by rw [h2, hl, g0, g1]; omega⟩
    · rintro ⟨n, h1, h2⟩
      refine ⟨n, by rw [rblk_apply]; exact h1, by rw [cblk_apply, h2, hl, g0, g1]; omega⟩
  rw [hsum]
  by_cases hh : hit (Lb m c) b (lrow ⟨t.val, lt64 t⟩ j)
  · rw [if_pos hh, if_pos (hiff.mpr hh)]
  · rw [if_neg hh, if_neg (mt hiff.mp hh)]

/-- The chunk's share of the embedding gradient, from the chunk's blocks. -/
theorem share_eq (c : Dev nD) (t : Fin cfg0.N) (b : Fin 128) (d : Fin 768) :
    (∑ j : Fin 2048, k0_pay4 (F := Ideal) (grid0.coords t) (eblk m c t) (wblk m c t) (k0_pay3 (rblk m c t)) (cblk m c t) (ix2 b j)
        * wblk m c t (ix2 j d))
      = chunkGradN (E m c) (W m c) (Lb m c) t.val b d := by
  unfold chunkGradN
  rw [dif_pos (lt64 t)]
  unfold chunkGrad
  exact Finset.sum_congr rfl fun j _ => by
    rw [wblk_apply m c t j d (lrow ⟨t.val, lt64 t⟩ j) rfl]
    exact congrArg (· * _) (pblk_apply m c t b j)

/-- THE ACCUMULATOR after point n: the shares of the chunks of n's half up to n. -/
theorem acc_eq (c : Dev nD) : ∀ (n : ℕ) (h : n < cfg0.N) (b : Fin 128) (d : Fin 768),
    (outsAt0 m c n h).1 (ix3 0 b d) = accGrad (E m c) (W m c) (Lb m c) n b d := by
  intro n
  induction n with
  | zero =>
    intro h b d
    have h0 : (⟨0, h⟩ : Fin cfg0.N).val % 32 = 0 := rfl
    rw [outsAt0_A m c ⟨0, h⟩ h0]
    dsimp only
    rw [Pieces.out5_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)]
    rw [Payload.accBlock_apply, Payload.zeroBlock_apply, zero_add, accGrad_first _ _ _ 0 rfl]
    exact share_eq m c ⟨0, h⟩ b d
  | succ n ih =>
    intro h b d
    by_cases h0 : (⟨n + 1, h⟩ : Fin cfg0.N).val % 32 = 0
    · rw [outsAt0_A m c ⟨n + 1, h⟩ h0]
      dsimp only
      rw [Pieces.out5_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)]
      rw [Payload.accBlock_apply, Payload.zeroBlock_apply, zero_add, accGrad_first _ _ _ (n + 1) h0]
      exact share_eq m c ⟨n + 1, h⟩ b d
    · rw [outsAt0_B m c ⟨n + 1, h⟩ h0]
      dsimp only
      rw [Pieces.out5_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c ((⟨n + 1, h⟩ : Fin cfg0.N).val - 1) (Nat.lt_of_le_of_lt (Nat.sub_le _ _) (⟨n + 1, h⟩ : Fin cfg0.N).isLt)).1 (outsAt0 m c ((⟨n + 1, h⟩ : Fin cfg0.N).val - 1) (Nat.lt_of_le_of_lt (Nat.sub_le _ _) (⟨n + 1, h⟩ : Fin cfg0.N).isLt)).2.2]
      rw [Payload.accBlock_apply, accGrad_next _ _ _ (n + 1) h0]
      show (outsAt0 m c n _).1 (ix3 0 b d) + _ = accGrad _ _ _ n b d + _
      rw [ih (Nat.lt_of_succ_lt h) b d]
      congr 1
      have hc : (outsAt0 m c n (Nat.lt_of_succ_lt h)).2.2 = k0_pay3 (rblk m c ⟨n + 1, h⟩) :=
        (cache_eq m c n _).trans (congrArg k0_pay3 (rblk_const m c _ _))
      show (∑ j : Fin 2048, k0_pay4 (F := Ideal) _ _ _ (outsAt0 m c n _).2.2 _ (ix2 b j) * _) = _
      rw [hc]
      exact share_eq m c ⟨n + 1, h⟩ b d

/-- The weight block from the chunk's blocks and the cached one-hot. -/
theorem wnew_of_cache (c : Dev nD) (t : Fin cfg0.N) (j : Fin 2048) (d : Fin 768) :
    k0_pay1 (F := Ideal) (eblk m c t) (wblk m c t)
        (Pieces.pblk (grid0.coords t) (eblk m c t) (wblk m c t) (k0_pay3 (rblk m c t)) (cblk m c t)) (lblk m c t) (ix2 j d)
      = newW (E m c) (W m c) (Lb m c) (lr m c) (lrow ⟨t.val, lt64 t⟩ j) d := by
  have hs : (∑ b : Fin 128, Pieces.pblk (F := Ideal) (grid0.coords t) (eblk m c t) (wblk m c t) (k0_pay3 (rblk m c t)) (cblk m c t) (ix2 b j)
        * eblk m c t (ix2 b d))
      = ∑ b : Fin 128, prob (E m c) (W m c) (Lb m c) b (lrow ⟨t.val, lt64 t⟩ j) * E m c (ix2 b d) :=
    Finset.sum_congr rfl fun b _ => by rw [pblk_apply m c t b j, eblk_apply]
  rw [Payload.newBlock_apply, hs, wblk_apply m c t j d (lrow ⟨t.val, lt64 t⟩ j) rfl, lblk_apply]
  rfl

/-- THE WEIGHT BLOCK after point n: the updated weights on chunk n's labels. -/
theorem wnew_eq (c : Dev nD) (n : ℕ) (h : n < cfg0.N) (j : Fin 2048) (d : Fin 768) :
    (outsAt0 m c n h).2.1 (ix2 j d)
      = newW (E m c) (W m c) (Lb m c) (lr m c) (lrow ⟨n, lt64 ⟨n, h⟩⟩ j) d := by
  by_cases h0 : (⟨n, h⟩ : Fin cfg0.N).val % 32 = 0
  · rw [outsAt0_A m c ⟨n, h⟩ h0]
    dsimp only
    rw [Pieces.out6_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩)]
    exact wnew_of_cache m c ⟨n, h⟩ j d
  · rw [outsAt0_B m c ⟨n, h⟩ h0]
    dsimp only
    rw [Pieces.out6_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) (fun hh => h0 ((hcond0_0 ⟨n, h⟩).mp hh)) (iblk m c 0 ⟨n, h⟩) (iblk m c 1 ⟨n, h⟩) (iblk m c 2 ⟨n, h⟩) (iblk m c 3 ⟨n, h⟩) (iblk m c 4 ⟨n, h⟩) (outsAt0 m c ((⟨n, h⟩ : Fin cfg0.N).val - 1) (Nat.lt_of_le_of_lt (Nat.sub_le _ _) (⟨n, h⟩ : Fin cfg0.N).isLt)).1 (outsAt0 m c ((⟨n, h⟩ : Fin cfg0.N).val - 1) (Nat.lt_of_le_of_lt (Nat.sub_le _ _) (⟨n, h⟩ : Fin cfg0.N).isLt)).2.2]
    have hn : n - 1 < cfg0.N := Nat.lt_of_le_of_lt (Nat.sub_le _ _) h
    have hc : (outsAt0 m c (n - 1) hn).2.2 = k0_pay3 (rblk m c ⟨n, h⟩) :=
      (cache_eq m c (n - 1) hn).trans (congrArg k0_pay3 (rblk_const m c _ _))
    show k0_pay1 (F := Ideal) _ _ (Pieces.pblk _ _ _ (outsAt0 m c (n - 1) _).2.2 _) _ (ix2 j d) = _
    rw [hc]
    exact wnew_of_cache m c ⟨n, h⟩ j d

end Cert.Xmc.Accum

end
-- ==== Proof.Arrays.lean ====
/-
  The two arrays the kernel's region writes, whole, and the host's last lines: the accumulator's array [2, 128, 768]
  ends holding each half's total (a half's block is written back once, after its last chunk); the weights' array is
  written back chunk by chunk, each block the updated weights on its 2048 labels; the host then adds the two halves.
-/
import proofs.«427815_j37340445672285_2_alg».proof.Proof.Accum
import Idealize.ShloMosaic.Lib.Pipeline.Value
import Idealize.ShloMosaic.Lib.StableHlo.Run

set_option maxRecDepth 16384

noncomputable section

namespace Cert.Xmc.Arrays

open Idealize.ShloMosaic Idealize.ShloMosaic.TcCoe Idealize.SL.Sem Idealize.ShloMosaic.ValueIdx
open Idealize.ShloMosaic.Pipeline (Dat)
open Cert.KernelIdeal Cert.KernelIdeal.Gen Cert.Xmc Cert.Xmc.Blocks Cert.Xmc.Accum

variable (m : (ℓ : Loc nD τ sig) → Buf (Elt Ideal) ℓ) (ρ : Dev nD → PrngReg)

/-- Each half's total, as the [2, 128, 768] array. -/
def halves (c : Dev nD) : S2x128x768.Idx → EReal :=
  fun y => accGrad (E m c) (W m c) (Lb m c) (32 * (y 0).val + 31) (y 1) (y 2)

theorem mem_blk5 (t : Fin cfg0.N) (i : S2x128x768.Idx) :
    i ∈ ((cfg0.win 5).blk t).view.set ↔ ∀ a : Fin 3, win0_5.index t a * S1x128x768.size a ≤ (i a).val
      ∧ (i a).val < win0_5.index t a * S1x128x768.size a + S1x128x768.size a := by
  show i ∈ ((View.whole main_v7_0).slice (win0_5.rect t)).set ↔ _
  rw [View.set_slice_whole, Rect.mem_set_unit]
  exact Iff.rfl

theorem mem_blk6 (t : Fin cfg0.N) (i : S131072x768.Idx) :
    i ∈ ((cfg0.win 6).blk t).view.set ↔ ∀ a : Fin 2, win0_6.index t a * S2048x768.size a ≤ (i a).val
      ∧ (i a).val < win0_6.index t a * S2048x768.size a + S2048x768.size a := by
  show i ∈ ((View.whole main_v7_1).slice (win0_6.rect t)).set ↔ _
  rw [View.set_slice_whole, Rect.mem_set_unit]
  exact Iff.rfl

/-- A half's last chunk writes back the half's total. -/
theorem flushed5_eq (c : Dev nD) (t : Fin cfg0.N) (hf : (cfg0.win 5).flush t = true) :
    (dats m 0 c).flushed 5 t = ((cfg0.win 5).blk t).view.read (Elt Ideal) (halves m c) := by
  have h31 : t.val % 32 = 31 := (flush0_5 t).mp hf
  obtain ⟨-, -, -, -, -, -, -, -, -, -, e0, e1, e2, -⟩ := idx_facts t
  show (cfg0.win 5).cut (grid0.coords t) ((dats m 0 c).after 5 t) = _
  rw [after0_5]
  funext y
  obtain ⟨p, b, d, rfl⟩ : ∃ (p : Fin 1) (b : Fin 128) (d : Fin 768), y = ix3 p b d := ⟨y 0, y 1, y 2, eq_ix3 y⟩
  obtain rfl : p = 0 := Subsingleton.elim _ _
  show (outsAt0 m c t.val t.isLt).1 (ix3 0 b d) = halves m c (((cfg0.win 5).blk t).view.emb (ix3 0 b d))
  rw [acc_eq]
  unfold halves
  refine congr (congr (congrArg _ ?_) ?_) ?_
  · show t.val = 32 * (win0_5.index t (0 : Fin 3) * 1 + 1 * 0) + 31; omega
  · exact Fin.ext (by show b.val = win0_5.index t (1 : Fin 3) * 128 + 1 * b.val; omega)
  · exact Fin.ext (by show d.val = win0_5.index t (2 : Fin 3) * 768 + 1 * d.val; omega)

/-- So the accumulator's array ends holding the two totals. -/
theorem final5 (c : Dev nD) : (dats m 0 c).arrAt 5 cfg0.N = halves m c :=
  (dats m 0 c).arrAt_eq_of_cover 5 (halves m c) (flushed5_eq m c) fun i => by
    have hi0 : (i 0).val < 2 := (i 0).isLt
    have hi1 : (i 1).val < 128 := (i 1).isLt
    have hi2 : (i 2).val < 768 := (i 2).isLt
    have hN : cfg0.N = 64 := N_0
    obtain ⟨t, ht⟩ : ∃ t : Fin cfg0.N, t.val = 32 * (i 0).val + 31 := ⟨⟨32 * (i 0).val + 31, by omega⟩, rfl⟩
    obtain ⟨-, -, -, -, -, -, -, -, -, -, e0, e1, e2, -⟩ := idx_facts t
    refine ⟨t, (flush0_5 t).mpr (by omega), ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 128 ≤ (i 1).val ∧ (i 1).val < win0_5.index t (1 : Fin 3) * 128 + 128; omega
    | ⟨2, _⟩ => show win0_5.index t (2 : Fin 3) * 768 ≤ (i 2).val ∧ (i 2).val < win0_5.index t (2 : Fin 3) * 768 + 768; omega

/-- Every chunk writes back the updated weights on its labels. -/
theorem flushed6_eq (c : Dev nD) (t : Fin cfg0.N) (hf : (cfg0.win 6).flush t = true) :
    (dats m 0 c).flushed 6 t = ((cfg0.win 6).blk t).view.read (Elt Ideal) (newWArr (E m c) (W m c) (Lb m c) (lr m c)) := by
  obtain ⟨-, -, -, -, -, -, -, -, -, -, -, -, -, e0, e1, -⟩ := idx_facts t
  show (cfg0.win 6).cut (grid0.coords t) ((dats m 0 c).after 6 t) = _
  rw [after0_6]
  funext y
  obtain ⟨j, d, rfl⟩ : ∃ (j : Fin 2048) (d : Fin 768), y = ix2 j d := ⟨y 0, y 1, eq_ix2 y⟩
  show (outsAt0 m c t.val t.isLt).2.1 (ix2 j d) = newWArr (E m c) (W m c) (Lb m c) (lr m c) (((cfg0.win 6).blk t).view.emb (ix2 j d))
  rw [wnew_eq]
  unfold newWArr
  refine congr (congrArg _ ?_) ?_
  · exact Fin.ext (by show t.val * 2048 + j.val = win0_6.index t (0 : Fin 2) * 2048 + 1 * j.val; omega)
  · exact Fin.ext (by show d.val = win0_6.index t (1 : Fin 2) * 768 + 1 * d.val; omega)

/-- So the weights' array ends holding the updated weights. -/
theorem final6 (c : Dev nD) : (dats m 0 c).arrAt 6 cfg0.N = newWArr (E m c) (W m c) (Lb m c) (lr m c) :=
  (dats m 0 c).arrAt_eq_of_cover 6 (newWArr (E m c) (W m c) (Lb m c) (lr m c)) (flushed6_eq m c) fun i => by
    have hi0 : (i 0).val < 131072 := (i 0).isLt
    have hi1 : (i 1).val < 768 := (i 1).isLt
    have hN : cfg0.N = 64 := N_0
    obtain ⟨t, ht⟩ : ∃ t : Fin cfg0.N, t.val = (i 0).val / 2048 := ⟨⟨(i 0).val / 2048, by omega⟩, rfl⟩
    obtain ⟨-, -, -, -, -, -, -, -, -, -, -, -, -, e0, e1, -⟩ := idx_facts t
    refine ⟨t, flush0_6 t, ?_⟩
    rw [mem_blk6]
    intro a
    match a with
    | ⟨0, _⟩ => show win0_6.index t (0 : Fin 2) * 2048 ≤ (i 0).val ∧ (i 0).val < win0_6.index t (0 : Fin 2) * 2048 + 2048; omega
    | ⟨1, _⟩ => show win0_6.index t (1 : Fin 2) * 768 ≤ (i 1).val ∧ (i 1).val < win0_6.index t (1 : Fin 2) * 768 + 768; omega

/-- The host's last lines add the two halves: the embedding gradient. -/
theorem tail_grad (c : Dev nD) :
    Pipeline.afterTail₀ cfgs (dats m) 0 (V0 m) [hostOps1] c main_v12 = gradArr (E m c) (W m c) (Lb m c) := by
  unfold Pipeline.afterTail₀
  show StableHlo.after hostOps1 _ (Proc.devRef .tc main_v12) = _
  after_results
  rw [(Pipeline.withArrays_arr spec0 launch0.win.arr_inj c (V0 m c) (fun w => (dats m 0 c).arrAt w (cfgs 0).N) 5).trans (final5 m c)]
  funext i
  obtain ⟨b, d, rfl⟩ : ∃ (b : Fin 128) (d : Fin 768), i = ix2 b d := ⟨i 0, i 1, eq_ix2 i⟩
  show shapeCast S128x768 (extractStridedSlice S1x128x768 ![0, 0, 0] (halves m c) Facts₀.slices_S2x128x768_S1x128x768_0_0_0)
        Facts₀.shapeCasts_S1x128x768_S128x768 (ix2 b d)
      + shapeCast S128x768 (extractStridedSlice S1x128x768 ![1, 0, 0] (halves m c) Facts₀.slices_S2x128x768_S1x128x768_1_0_0)
        Facts₀.shapeCasts_S1x128x768_S128x768 (ix2 b d)
      = gradIn (E m c) (W m c) (Lb m c) b d
  have hrm : (S1x128x768.rowMajor (ix3 (0 : Fin 1) b d)).val = (S128x768.rowMajor (ix2 b d)).val := by
    rewrite [Shape.rowMajor_val_three, Shape.rowMajor_val_two]
    show (0 * 128 + b.val) * 768 + d.val = b.val * 768 + d.val
    omega
  rw [shapeCast_apply _ Facts₀.shapeCasts_S1x128x768_S128x768 (ix2 b d) (ix3 (0 : Fin 1) b d) hrm,
    shapeCast_apply _ Facts₀.shapeCasts_S1x128x768_S128x768 (ix2 b d) (ix3 (0 : Fin 1) b d) hrm,
    extractStridedSlice_apply ![0, 0, 0] (halves m c) Facts₀.slices_S2x128x768_S1x128x768_0_0_0 (ix3 (0 : Fin 1) b d) (ix3 (0 : Fin 2) b d)
      (fun a => by
        match a with
        | ⟨0, _⟩ => rfl
        | ⟨1, _⟩ => show b.val = 0 + b.val; omega
        | ⟨2, _⟩ => show d.val = 0 + d.val; omega),
    extractStridedSlice_apply ![1, 0, 0] (halves m c) Facts₀.slices_S2x128x768_S1x128x768_1_0_0 (ix3 (0 : Fin 1) b d) (ix3 (1 : Fin 2) b d)
      (fun a => by
        match a with
        | ⟨0, _⟩ => rfl
        | ⟨1, _⟩ => show b.val = 0 + b.val; omega
        | ⟨2, _⟩ => show d.val = 0 + d.val; omega)]
  exact (gradIn_halves (E m c) (W m c) (Lb m c) b d).symm

/-- THE KERNEL'S RUN, read: every weakly fair execution ends with the first result the embedding gradient, the second the
    updated weights, and the arguments as they were. -/
theorem run : θ_run defs (onTc (τ := τ) (main (F := Ideal))) ⟨m, fun _ => 0, ρ⟩ fun r => ∀ c : Dev nD,
      r.2.mem ((c.tc : Thread nD τ).loc main_v12) = gradArr (E m c) (W m c) (Lb m c)
      ∧ r.2.mem ((c.tc : Thread nD τ).loc main_v7_1) = newWArr (E m c) (W m c) (Lb m c) (lr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_grad m c),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Xmc.Arrays

end
-- ==== Proof.LibFoldSet.lean ====
/-
  A general lemma about overwriting entries of a table one update at a time.

  Take a table x : ι → α and a list of updates; update n writes the value u n at entry t n. If the value written
  depends on the entry alone (u n = g (t n)), then the order of the updates and how often an entry is hit do not
  matter: after all of them an entry that some update lands at holds g of itself, and every other entry holds what it
  held before. This is what an indexed "set" (a scatter whose combining function returns the update) computes when
  repeated targets carry equal values, read as a left fold over the updates.
-/
import Mathlib.Data.List.Basic

namespace Cert.Xmc.LibFoldSet

/-- Two step functions that agree everywhere fold alike. -/
theorem foldl_step_congr {β γ : Type} (f f' : β → γ → β) (h : ∀ r n, f r n = f' r n) (x : β) (l : List γ) :
    l.foldl f x = l.foldl f' x := by
  rw [show f = f' from funext fun r => funext fun n => h r n]

open Classical in
/-- Writing, one update after another, the value u n at entry t n, where the value written depends on the entry alone
    (u n = g (t n)): an entry some update lands at ends at g of itself, whatever the order and however often it is
    hit; any other entry keeps its value. -/
theorem foldl_set_apply {ι κ α : Type} [DecidableEq ι] (t : κ → ι) (u : κ → α) (g : ι → α)
    (hu : ∀ n, u n = g (t n)) (l : List κ) (x : ι → α) (i : ι) :
    l.foldl (fun r n => fun i' => if i' = t n then u n else r i') x i
      = if ∃ n ∈ l, t n = i then g i else x i := by
  induction l generalizing x with
  | nil => simp
  | cons m l ih =>
    rw [List.foldl_cons, ih]
    by_cases h : ∃ n ∈ l, t n = i
    · rw [if_pos h, if_pos (by obtain ⟨n, hn, e⟩ := h; exact ⟨n, List.mem_cons_of_mem _ hn, e⟩)]
    · rw [if_neg h]
      by_cases hm : i = t m
      · rw [if_pos hm, if_pos ⟨m, List.mem_cons_self, hm.symm⟩, hu, hm]
      · rw [if_neg hm, if_neg]
        rintro ⟨n, hn, e⟩
        rcases List.mem_cons.1 hn with rfl | hn'
        · exact hm e.symm
        · exact h ⟨n, hn', e⟩

end Cert.Xmc.LibFoldSet
-- ==== Proof.Reference.lean ====
/-
  The reference's two results are the specification's arrays.
-/
import proofs.«427815_j37340445672285_2_alg».proof.Proof.Gen.ReferenceIdeal.Run
import proofs.«427815_j37340445672285_2_alg».proof.Proof.Gen.ReferenceIdeal.Read
import proofs.«427815_j37340445672285_2_alg».proof.Proof.Spec
import Idealize.ShloMosaic.Lib.IdealHost
import proofs.«427815_j37340445672285_2_alg».proof.Proof.LibFoldSet

noncomputable section

namespace Cert.Xmc.Reference

open Idealize.ShloMosaic Idealize.ShloMosaic.ValueIdx Cert.Xmc
open Cert.ReferenceIdeal Cert.ReferenceIdeal.Gen
open Cert.Xmc.LibFoldSet
open scoped BigOperators

/-! ## The index words

A word below 2^31 is non-negative as a signed word, so the "add the extent where negative" select keeps it. -/

/-- A word below 2^31 read signed is its unsigned value. -/
theorem toInt_of_small (x : BitVec 32) (h : x.toNat < 2147483648) : x.toInt = (x.toNat : Int) := by
  rw [BitVec.toInt_eq_toNat_cond]
  split
  · rfl
  · omega

/-- A word below 2^31 is not below zero as a signed word. -/
theorem slt_zero_of_small (x : BitVec 32) (h : x.toNat < 2147483648) : IntOp.cmpi .slt x 0#32 = 0#1 := by
  have hx := toInt_of_small x h
  show BitVec.ofBool (x.slt 0#32) = 0#1
  have : x.slt 0#32 = false := by
    rw [BitVec.slt, hx]
    simp
  rw [this]
  rfl

/-- The select on "negative" keeps a word below 2^31. -/
theorem keep_of_small (x y : BitVec 32) (h : x.toNat < 2147483648) :
    Scalar.select (IntOp.cmpi .slt x 0#32) y x = x := by
  rw [slt_zero_of_small x h, select_zero]

section Words
variable (Lb : IVec SL 32)

/-- Column 0 of the pairs, flattened. -/
theorem v1_at (n : Fin 512) : Read.val_main_v1 (F := Ideal) Lb (ix1 n) = Lb (ix2 n 0) := by
  rw [Read.val_main_v1_apply, Read.val_main_v0_apply]
  congr 1
  funext a
  refine Fin.ext ?_
  match a with
  | ⟨0, _⟩ => exact Nat.div_one _
  | ⟨1, _⟩ => rfl

/-- Column 1 of the pairs, flattened. -/
theorem v3_at (n : Fin 512) : Read.val_main_v3 (F := Ideal) Lb (ix1 n) = Lb (ix2 n 1) := by
  rw [Read.val_main_v3_apply, Read.val_main_v2_apply]
  congr 1
  funext a
  refine Fin.ext ?_
  match a with
  | ⟨0, _⟩ => exact Nat.div_one _
  | ⟨1, _⟩ => rfl

variable (hL : ∀ n : Fin 512, (Lb (ix2 n 0)).toNat < 128 ∧ (Lb (ix2 n 1)).toNat < 131072)
include hL

theorem v16_at (n : Fin 512) : Read.val_main_v16 (F := Ideal) Lb (ix1 n) = Lb (ix2 n 0) := by
  rw [Read.val_main_v16_apply, Read.val_main_v13_apply, Read.val_main_v12_apply, Read.val_main_c_apply, v1_at]
  exact keep_of_small _ _ (by have := (hL n).1; omega)

theorem v21_at (n : Fin 512) : Read.val_main_v21 (F := Ideal) Lb (ix1 n) = Lb (ix2 n 1) := by
  rw [Read.val_main_v21_apply, Read.val_main_v18_apply, Read.val_main_v17_apply, Read.val_main_c_2_apply, v3_at]
  exact keep_of_small _ _ (by have := (hL n).2; omega)

theorem v32_at (n : Fin 512) : Read.val_main_v32 (F := Ideal) Lb (ix1 n) = Lb (ix2 n 0) := by
  rw [Read.val_main_v32_apply, Read.val_main_v29_apply, Read.val_main_v28_apply, Read.val_main_c_5_apply, v1_at]
  exact keep_of_small _ _ (by have := (hL n).1; omega)

theorem v37_at (n : Fin 512) : Read.val_main_v37 (F := Ideal) Lb (ix1 n) = Lb (ix2 n 1) := by
  rw [Read.val_main_v37_apply, Read.val_main_v34_apply, Read.val_main_v33_apply, Read.val_main_c_7_apply, v3_at]
  exact keep_of_small _ _ (by have := (hL n).2; omega)

end Words

/-! ## The index arrays are the pairs -/

section Concat
variable (Lb : IVec SL 32)

/-- Two [512,1] columns joined along axis 1, read at (n, c). -/
theorem concat_cols (x₁ x₂ : IVec S512x1 32) (y : IVec S512x2 32)
    (h1 : ∀ n : Fin 512, x₁ (ix2 n 0) = y (ix2 n 0)) (h2 : ∀ n : Fin 512, x₂ (ix2 n 0) = y (ix2 n 1)) :
    concatenate S512x2 1 [⟨S512x1, x₁⟩, ⟨S512x1, x₂⟩] concatenates_S512x1_S512x1_S512x2_d1 = y := by
  funext j
  obtain ⟨n, c, rfl⟩ : ∃ (n : Fin 512) (c : Fin 2), j = ix2 n c := ⟨j 0, j 1, eq_ix2 j⟩
  match c with
  | ⟨0, _⟩ =>
    exact (concatenate_pair_apply_left (1 : Fin S512x2.rank) x₁ x₂ concatenates_S512x1_S512x1_S512x2_d1 (ix2 n 0) rfl (ix2 n 0)
      (fun b => match b with | ⟨0, _⟩ => rfl | ⟨1, _⟩ => rfl)).trans (h1 n)
  | ⟨1, _⟩ =>
    exact (concatenate_pair_apply_right (1 : Fin S512x2.rank) x₁ x₂ concatenates_S512x1_S512x1_S512x2_d1 (ix2 n 1) rfl rfl (ix2 n 0)
      (fun b hb => match b, hb with | ⟨0, _⟩, _ => rfl | ⟨1, _⟩, hb => absurd rfl hb) rfl).trans (h2 n)

variable (hL : ∀ n : Fin 512, (Lb (ix2 n 0)).toNat < 128 ∧ (Lb (ix2 n 1)).toNat < 131072)
include hL

/-- The gather's start indices are the pairs. -/
theorem v24_eq : Read.val_main_v24 (F := Ideal) Lb = Lb := by
  unfold Read.val_main_v24
  refine concat_cols _ _ Lb (fun n => ?_) (fun n => ?_)
  · rw [Read.val_main_v22_apply]; exact v16_at Lb hL n
  · rw [Read.val_main_v23_apply]; exact v21_at Lb hL n

/-- The scatter's indices are the pairs. -/
theorem v40_eq : Read.val_main_v40 (F := Ideal) Lb = Lb := by
  unfold Read.val_main_v40
  refine concat_cols _ _ Lb (fun n => ?_) (fun n => ?_)
  · rw [Read.val_main_v38_apply]; exact v32_at Lb hL n
  · rw [Read.val_main_v39_apply]; exact v37_at Lb hL n

end Concat

/-! ## The gather's and the scatter's dimension numbers, reduced

Both take the start (n, ·) of the pairs array for update or result n, both operand axes collapsed: no window, no batch. -/

section Dims

/-- The entry a pair names. -/
def tgt (idx : IVec SL 32) (hL : ∀ n : Fin 512, (idx (ix2 n 0)).toNat < 128 ∧ (idx (ix2 n 1)).toNat < 131072)
    (n : Fin 512) : S128x131072.Idx :=
  ix2 ⟨(idx (ix2 n 0)).toNat, (hL n).1⟩ ⟨(idx (ix2 n 1)).toNat, (hL n).2⟩

theorem tgt_eq_iff (idx : IVec SL 32) (hL : ∀ n : Fin 512, (idx (ix2 n 0)).toNat < 128 ∧ (idx (ix2 n 1)).toNat < 131072)
    (n : Fin 512) (b : Fin 128) (l : Fin 131072) :
    tgt idx hL n = ix2 b l ↔ (idx (ix2 n 0)).toNat = b.val ∧ (idx (ix2 n 1)).toNat = l.val := by
  constructor
  · intro h
    exact ⟨congrArg Fin.val (congrFun h 0), congrArg Fin.val (congrFun h 1)⟩
  · rintro ⟨h0, h1⟩
    funext a
    refine Fin.ext ?_
    match a with
    | ⟨0, _⟩ => exact h0
    | ⟨1, _⟩ => exact h1

theorem gd_si0 (n : Fin 512) :
    gather_S128x131072_S512x2_S512_n_01_n_n_01_1_11.siIdx (ix1 n)
      ⟨List.idxOf (0 : Fin S128x131072.rank) gather_S128x131072_S512x2_S512_n_01_n_n_01_1_11.startIndexMap,
        List.idxOf_lt_length_iff.2 (by decide)⟩ = ix2 n 0 := by
  funext b
  refine Fin.ext ?_
  match b with
  | ⟨0, _⟩ => rfl
  | ⟨1, _⟩ => rfl

theorem gd_si1 (n : Fin 512) :
    gather_S128x131072_S512x2_S512_n_01_n_n_01_1_11.siIdx (ix1 n)
      ⟨List.idxOf (1 : Fin S128x131072.rank) gather_S128x131072_S512x2_S512_n_01_n_n_01_1_11.startIndexMap,
        List.idxOf_lt_length_iff.2 (by decide)⟩ = ix2 n 1 := by
  funext b
  refine Fin.ext ?_
  match b with
  | ⟨0, _⟩ => rfl
  | ⟨1, _⟩ => rfl

/-- The gather's operand row for result n: the pair's first word, read signed and clamped. -/
theorem gd_at0 (n : Fin 512) (idx : IVec S512x2 32) :
    (gather_S128x131072_S512x2_S512_n_01_n_n_01_1_11.operandIdx (ix1 n) idx 0).val
      = min (idx (ix2 n 0)).toInt.toNat 127 := by
  show gather_S128x131072_S512x2_S512_n_01_n_n_01_1_11.start (ix1 n) idx 0
    + gather_S128x131072_S512x2_S512_n_01_n_n_01_1_11.batchCoord (ix1 n) 0
    + gather_S128x131072_S512x2_S512_n_01_n_n_01_1_11.offCoord (ix1 n) 0 = _
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (show (0 : Fin S128x131072.rank) ∈ gather_S128x131072_S512x2_S512_n_01_n_n_01_1_11.startIndexMap by decide),
    gd_si0]
  rfl

/-- The gather's operand column for result n. -/
theorem gd_at1 (n : Fin 512) (idx : IVec S512x2 32) :
    (gather_S128x131072_S512x2_S512_n_01_n_n_01_1_11.operandIdx (ix1 n) idx 1).val
      = min (idx (ix2 n 1)).toInt.toNat 131071 := by
  show gather_S128x131072_S512x2_S512_n_01_n_n_01_1_11.start (ix1 n) idx 1
    + gather_S128x131072_S512x2_S512_n_01_n_n_01_1_11.batchCoord (ix1 n) 1
    + gather_S128x131072_S512x2_S512_n_01_n_n_01_1_11.offCoord (ix1 n) 1 = _
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (show (1 : Fin S128x131072.rank) ∈ gather_S128x131072_S512x2_S512_n_01_n_n_01_1_11.startIndexMap by decide),
    gd_si1]
  rfl

/-- With the pairs inside the matrix, the gather reads the entry the pair names. -/
theorem gather_idx (idx : IVec SL 32) (hL : ∀ n : Fin 512, (idx (ix2 n 0)).toNat < 128 ∧ (idx (ix2 n 1)).toNat < 131072)
    (n : Fin 512) :
    gather_S128x131072_S512x2_S512_n_01_n_n_01_1_11.operandIdx (ix1 n) idx = tgt idx hL n := by
  funext a
  refine Fin.ext ?_
  match a with
  | ⟨0, _⟩ =>
    refine (gd_at0 n idx).trans ?_
    have e := toInt_of_small (idx (ix2 n 0)) (by have := (hL n).1; omega)
    have := (hL n).1
    show min (idx (ix2 n 0)).toInt.toNat 127 = (idx (ix2 n 0)).toNat
    omega
  | ⟨1, _⟩ =>
    refine (gd_at1 n idx).trans ?_
    have e := toInt_of_small (idx (ix2 n 1)) (by have := (hL n).2; omega)
    have := (hL n).2
    show min (idx (ix2 n 1)).toInt.toNat 131071 = (idx (ix2 n 1)).toNat
    omega

end Dims

/-! ## The scatter -/

section Scatter

theorem sd_si0 (n : Fin 512) :
    scatter_S128x131072_S512x2_S512_n_01_01_1.siIdx (ix1 n)
      ⟨List.idxOf (0 : Fin S128x131072.rank) scatter_S128x131072_S512x2_S512_n_01_01_1.scatterDimsToOperandDims,
        List.idxOf_lt_length_iff.2 (by decide)⟩ = ix2 n 0 := by
  funext b
  refine Fin.ext ?_
  match b with
  | ⟨0, _⟩ => rfl
  | ⟨1, _⟩ => rfl

theorem sd_si1 (n : Fin 512) :
    scatter_S128x131072_S512x2_S512_n_01_01_1.siIdx (ix1 n)
      ⟨List.idxOf (1 : Fin S128x131072.rank) scatter_S128x131072_S512x2_S512_n_01_01_1.scatterDimsToOperandDims,
        List.idxOf_lt_length_iff.2 (by decide)⟩ = ix2 n 1 := by
  funext b
  refine Fin.ext ?_
  match b with
  | ⟨0, _⟩ => rfl
  | ⟨1, _⟩ => rfl

/-- The scatter's start row for update n: the pair's first word, read signed. -/
theorem sd_start0 (n : Fin 512) (idx : IVec S512x2 32) :
    scatter_S128x131072_S512x2_S512_n_01_01_1.start (ix1 n) idx 0 = (idx (ix2 n 0)).toInt := by
  unfold ScatterDims.start
  rw [dif_pos (show (0 : Fin S128x131072.rank) ∈ scatter_S128x131072_S512x2_S512_n_01_01_1.scatterDimsToOperandDims by decide),
    sd_si0]

/-- The scatter's start column for update n. -/
theorem sd_start1 (n : Fin 512) (idx : IVec S512x2 32) :
    scatter_S128x131072_S512x2_S512_n_01_01_1.start (ix1 n) idx 1 = (idx (ix2 n 1)).toInt := by
  unfold ScatterDims.start
  rw [dif_pos (show (1 : Fin S128x131072.rank) ∈ scatter_S128x131072_S512x2_S512_n_01_01_1.scatterDimsToOperandDims by decide),
    sd_si1]

/-- Both operand axes are inserted: the window is one entry. -/
theorem sd_window0 (n : Fin 512) : scatter_S128x131072_S512x2_S512_n_01_01_1.window (ix1 n) 0 = 0 := by
  unfold ScatterDims.window
  rw [dif_neg (show ¬(0 : Fin S128x131072.rank) ∈ scatter_S128x131072_S512x2_S512_n_01_01_1.sKept by decide)]

theorem sd_window1 (n : Fin 512) : scatter_S128x131072_S512x2_S512_n_01_01_1.window (ix1 n) 1 = 0 := by
  unfold ScatterDims.window
  rw [dif_neg (show ¬(1 : Fin S128x131072.rank) ∈ scatter_S128x131072_S512x2_S512_n_01_01_1.sKept by decide)]

/-- With the pairs inside the matrix, update n lands at the entry the pair names. -/
theorem scatter_idx (idx : IVec SL 32) (hL : ∀ n : Fin 512, (idx (ix2 n 0)).toNat < 128 ∧ (idx (ix2 n 1)).toNat < 131072)
    (n : Fin 512) :
    scatter_S128x131072_S512x2_S512_n_01_01_1.resultIdx? (ix1 n) idx = some (tgt idx hL n) := by
  have e0 := toInt_of_small (idx (ix2 n 0)) (by have := (hL n).1; omega)
  have e1 := toInt_of_small (idx (ix2 n 1)) (by have := (hL n).2; omega)
  have b0 := (hL n).1
  have b1 := (hL n).2
  have H : ∀ a, 0 ≤ scatter_S128x131072_S512x2_S512_n_01_01_1.start (ix1 n) idx a
        + scatter_S128x131072_S512x2_S512_n_01_01_1.window (ix1 n) a
      ∧ scatter_S128x131072_S512x2_S512_n_01_01_1.start (ix1 n) idx a
        + scatter_S128x131072_S512x2_S512_n_01_01_1.window (ix1 n) a < S128x131072.size a := by
    refine Fin.forall_fin_two.2 ⟨?_, ?_⟩
    · rw [sd_start0, sd_window0, e0]
      show 0 ≤ ((idx (ix2 n 0)).toNat : Int) + ((0 : Nat) : Int) ∧ ((idx (ix2 n 0)).toNat : Int) + ((0 : Nat) : Int) < ((128 : Nat) : Int)
      omega
    · rw [sd_start1, sd_window1, e1]
      show 0 ≤ ((idx (ix2 n 1)).toNat : Int) + ((0 : Nat) : Int) ∧ ((idx (ix2 n 1)).toNat : Int) + ((0 : Nat) : Int) < ((131072 : Nat) : Int)
      omega
  unfold ScatterDims.resultIdx?
  rw [dif_pos H]
  congr 1
  funext a
  refine Fin.ext ?_
  match a with
  | ⟨0, _⟩ =>
    show (scatter_S128x131072_S512x2_S512_n_01_01_1.start (ix1 n) idx 0
      + ((scatter_S128x131072_S512x2_S512_n_01_01_1.window (ix1 n) 0 : Nat) : Int)).toNat = (idx (ix2 n 0)).toNat
    rw [sd_start0, sd_window0, e0]
    omega
  | ⟨1, _⟩ =>
    show (scatter_S128x131072_S512x2_S512_n_01_01_1.start (ix1 n) idx 1
      + ((scatter_S128x131072_S512x2_S512_n_01_01_1.window (ix1 n) 1 : Nat) : Int)).toNat = (idx (ix2 n 1)).toNat
    rw [sd_start1, sd_window1, e1]
    omega

open Classical in
/-- The scatter of updates that depend on their entry alone, read at an entry. -/
theorem scatter_apply (x : S128x131072.Idx → EReal) (idx : IVec SL 32) (upd : S512.Idx → EReal)
    (hL : ∀ n : Fin 512, (idx (ix2 n 0)).toNat < 128 ∧ (idx (ix2 n 1)).toNat < 131072)
    (g : S128x131072.Idx → EReal) (hu : ∀ n : Fin 512, upd (ix1 n) = g (tgt idx hL n)) (i : S128x131072.Idx) :
    Host.scatter scatter_S128x131072_S512x2_S512_n_01_01_1 (fun _ b => b) x idx upd i
      = if ∃ n : Fin 512, tgt idx hL n = i then g i else x i := by
  unfold Host.scatter
  refine (congrFun (foldl_step_congr _
    (fun r n => fun i' => if i' = tgt idx hL ((S512.rowMajor.symm n) 0) then upd (S512.rowMajor.symm n) else r i')
    (fun r n => ?_) x _) i).trans ?_
  · generalize S512.rowMajor.symm n = j
    obtain ⟨m, rfl⟩ : ∃ m : Fin 512, j = ix1 m := ⟨j 0, eq_ix1 j⟩
    rw [scatter_idx idx hL m]
  · rw [foldl_set_apply (fun n => tgt idx hL ((S512.rowMajor.symm n) 0)) (fun n => upd (S512.rowMajor.symm n)) g
      (fun n => by
        generalize S512.rowMajor.symm n = j
        obtain ⟨m, rfl⟩ : ∃ m : Fin 512, j = ix1 m := ⟨j 0, eq_ix1 j⟩
        exact hu m)]
    have hiff : (∃ n ∈ List.finRange S512.numel, tgt idx hL ((S512.rowMajor.symm n) 0) = i)
        ↔ ∃ m : Fin 512, tgt idx hL m = i := by
      constructor
      · rintro ⟨n, _, e⟩
        exact ⟨_, e⟩
      · rintro ⟨m, e⟩
        refine ⟨S512.rowMajor (ix1 m), List.mem_finRange _, ?_⟩
        show tgt idx hL ((S512.rowMajor.symm (S512.rowMajor (ix1 m))) 0) = i
        rw [Equiv.symm_apply_apply]
        exact e
    by_cases h : ∃ m : Fin 512, tgt idx hL m = i
    · rw [if_pos h, if_pos (hiff.2 h)]
    · rw [if_neg h, if_neg (mt hiff.1 h)]

end Scatter

/-! ## The probabilities, and the matrix after the scatter -/

section Values
variable (E : SE.Idx → EReal) (W : SW.Idx → EReal) (Lb : IVec SL 32)

/-- The probability matrix at (b, l): the logistic of the logit. -/
theorem v11_at (b : Fin 128) (l : Fin 131072) :
    Read.val_main_v11 (F := Ideal) E W (ix2 b l) = Ideal.logistic (logit E W b l) := by
  have hl : ∀ k : Fin 768, Read.lidx_main_v5 (ix2 b l) k = ix2 b k := fun k =>
    funext fun a => Fin.ext (by match a with | ⟨0, _⟩ => rfl | ⟨1, _⟩ => rfl)
  have hr : ∀ k : Fin 768, Read.idx_main_v4 (Read.ridx_main_v5 (ix2 b l) k) = ix2 l k := fun k =>
    funext fun a => Fin.ext (by match a with | ⟨0, _⟩ => rfl | ⟨1, _⟩ => rfl)
  rw [Read.val_main_v11_apply, Read.val_main_v10_apply, Read.val_main_cst_0_apply, Read.val_main_v9_apply,
    Read.val_main_v8_apply, Read.val_main_cst_apply, Read.val_main_v7_apply, Read.val_main_v6_apply,
    Read.val_main_v5_apply]
  simp only [Read.val_main_v4_apply, hl, hr, Ideal.hostDivf_def, Ideal.ofBits_def, Ideal.addf_def,
    Ideal.hostUnary_exp_def, Ideal.hostNegf_def, Ideal.negf_def, Ideal.ofBits_one_f32]
  rfl

variable (hL : ∀ n : Fin 512, (Lb (ix2 n 0)).toNat < 128 ∧ (Lb (ix2 n 1)).toNat < 131072)
include hL

/-- Update n: the probability at the entry pair n names, less one. -/
theorem v27_at (n : Fin 512) :
    Read.val_main_v27 (F := Ideal) E W Lb (ix1 n) = Read.val_main_v11 (F := Ideal) E W (tgt Lb hL n) - 1 := by
  rw [Read.val_main_v27_apply, Read.val_main_v26_apply, Read.val_main_cst_4_apply]
  unfold Read.val_main_v25
  rw [v24_eq Lb hL]
  unfold Host.gather
  rw [gather_idx Lb hL n]
  simp only [Ideal.subf_def, Ideal.ofBits_def, Ideal.ofBits_one_f32]

/-- The matrix after the scatter is the loss gradient: the probability, less one at a listed pair. -/
theorem v41_at (b : Fin 128) (l : Fin 131072) :
    Read.val_main_v41 (F := Ideal) E W Lb (ix2 b l) = prob E W Lb b l := by
  unfold Read.val_main_v41
  rw [v40_eq Lb hL]
  refine (scatter_apply (Read.val_main_v11 (F := Ideal) E W) Lb (Read.val_main_v27 (F := Ideal) E W Lb) hL
    (fun i => Read.val_main_v11 (F := Ideal) E W i - 1) (fun n => v27_at E W Lb hL n) (ix2 b l)).trans ?_
  have hiff : (∃ n : Fin 512, tgt Lb hL n = ix2 b l) ↔ hit Lb b l := by
    unfold hit
    exact exists_congr fun n => tgt_eq_iff Lb hL n b l
  unfold prob
  rw [v11_at]
  by_cases h : hit Lb b l
  · rw [if_pos (hiff.2 h), if_pos h, sub_eq_add_neg]
  · rw [if_neg (mt hiff.1 h), if_neg h, add_zero]

end Values

/-! ## The two results -/

/-- A one-element array reshaped to a scalar is its element. -/
theorem v48_at (lr : SR.Idx → EReal) (j : S_.Idx) : Read.val_main_v48 (F := Ideal) lr j = lr (ix1 0) := by
  unfold Read.val_main_v48
  refine shapeCast_apply lr shapeCasts_S1_S_ j (ix1 0) ?_
  have h1 : S_.numel = 1 := Shape.numel_eq_one fun a => a.elim0
  have h2 := (S_.rowMajor j).isLt
  rw [Shape.rowMajor_val_one]
  show (0 : Nat) = (S_.rowMajor j).val
  omega

/-- With every listed pair inside the [128, 131072] matrix, the reference's first result is the embedding gradient. -/
theorem out0_eq (E : SE.Idx → EReal) (W : SW.Idx → EReal) (Lb : IVec SL 32)
    (hL : ∀ n : Fin 512, (Lb (ix2 n 0)).toNat < 128 ∧ (Lb (ix2 n 1)).toNat < 131072) :
    Cert.ReferenceIdeal.Read.val_main_v42 (F := Ideal) E W Lb = gradArr E W Lb := by
  funext i
  obtain ⟨b, d, rfl⟩ : ∃ (b : Fin 128) (d : Fin 768), i = ix2 b d := ⟨i 0, i 1, eq_ix2 i⟩
  rw [Read.val_main_v42_apply]
  show _ = gradIn E W Lb b d
  unfold gradIn
  refine Finset.sum_congr rfl fun k _ => ?_
  have hl : Read.lidx_main_v42 (ix2 b d) k = ix2 b k :=
    funext fun a => Fin.ext (by match a with | ⟨0, _⟩ => rfl | ⟨1, _⟩ => rfl)
  have hr : Read.ridx_main_v42 (ix2 b d) k = ix2 k d :=
    funext fun a => Fin.ext (by match a with | ⟨0, _⟩ => rfl | ⟨1, _⟩ => rfl)
  rw [hl, hr, v41_at E W Lb hL]

/-- and its second result the updated weights. -/
theorem out1_eq (E : SE.Idx → EReal) (W : SW.Idx → EReal) (Lb : IVec SL 32) (lr : SR.Idx → EReal)
    (hL : ∀ n : Fin 512, (Lb (ix2 n 0)).toNat < 128 ∧ (Lb (ix2 n 1)).toNat < 131072) :
    Cert.ReferenceIdeal.Read.val_main_v51 (F := Ideal) E W Lb lr = newWArr E W Lb lr := by
  funext i
  obtain ⟨l, d, rfl⟩ : ∃ (l : Fin 131072) (d : Fin 768), i = ix2 l d := ⟨i 0, i 1, eq_ix2 i⟩
  have hl : ∀ k : Fin 128, Read.idx_main_v43 (Read.lidx_main_v44 (ix2 l d) k) = ix2 k l := fun k =>
    funext fun a => Fin.ext (by match a with | ⟨0, _⟩ => rfl | ⟨1, _⟩ => rfl)
  have hr : ∀ k : Fin 128, Read.ridx_main_v44 (ix2 l d) k = ix2 k d := fun k =>
    funext fun a => Fin.ext (by match a with | ⟨0, _⟩ => rfl | ⟨1, _⟩ => rfl)
  rw [Read.val_main_v51_apply, Read.val_main_v50_apply, Read.val_main_v49_apply, v48_at, Read.val_main_v47_apply,
    Read.val_main_v46_apply, Read.val_main_v45_apply, Read.val_main_cst_9_apply, Read.val_main_v44_apply]
  simp only [Read.val_main_v43_apply, hl, hr, v41_at E W Lb hL, Ideal.subf_def, Ideal.mulf_def, Ideal.addf_def,
    Ideal.ofBits_def]
  rfl

end Cert.Xmc.Reference

end
-- ==== Proof.Labels.lean ====
/-
  The precondition, decoded: every listed pair names an entry of the [128, 131072] matrix.
-/
import proofs.«427815_j37340445672285_2_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.Xmc.Labels

open Idealize.ShloMosaic Idealize.ShloMosaic.ValueIdx
open Cert.Pre_finite_inputs

/-- A 32-bit word that is, signed, at least 0 and below a bound N < 2³¹ has unsigned value below N: a word whose
    signed value is non-negative has its top bit clear, so its signed and unsigned values agree. -/
theorem toNat_lt_of_signed (w : BitVec 32) (N : Nat) (hN : N < 2 ^ 31)
    (h0 : IntOp.cmpi .sge w 0#32 = 1#1) (h1 : IntOp.cmpi .slt w (BitVec.ofNat 32 N) = 1#1) : w.toNat < N := by
  rw [IntOp.cmpi_sge] at h0
  rw [IntOp.cmpi_slt, StableHlo.Predicate.toInt_ofNat_small N hN] at h1
  have h00 : (0#32 : BitVec 32).toInt = 0 := by decide
  rw [h00] at h0
  rw [BitVec.toInt_eq_toNat_cond] at h0 h1
  split at h0 <;> omega

/-- The scalar shape has one index. -/
instance : Subsingleton S_.Idx := ⟨fun a b => funext fun d => d.elim0⟩

/-- Entry (n, 0) of the column cut from the [512, 2] table at column offset c (c = 0 or 1) is the table's entry (n, c). -/
theorem slice_col (x2 : IVec S512x2 32) (c : Fin 2) (hs : S512x2.Slices ![0, c.val] S512x1) (n : Fin 512) :
    extractStridedSlice S512x1 ![0, c.val] x2 hs (ix2 n (0 : Fin 1)) = x2 (ix2 n c) :=
  extractStridedSlice_apply _ _ _ _ _ (fun a => by
    match a with
    | ⟨0, _⟩ => exact (Nat.zero_add _).symm
    | ⟨1, _⟩ => exact (Nat.add_zero _).symm)

/-- One column's conjunct, decoded: where "every entry of the column at offset c is, signed, at least 0 and below N"
    reduces to 1, the table's entry (n, c) is below N as an unsigned word. -/
theorem col_lt (x2 : IVec S512x2 32) (c : Fin 2) (hs : S512x2.Slices ![0, c.val] S512x1) (N : Nat) (hN : N < 2 ^ 31)
    (hb : S_.BroadcastsInDim S512x1 (![] : Fin 0 → Fin S512x1.rank)) (hr : S512x1.ReducesTo [0, 1] S_) (h0 : 0 < S_.numel)
    (e : Host.reduce IntOp.andi
          (andi (cmpi .sge (extractStridedSlice S512x1 ![0, c.val] x2 hs) (broadcastInDim S512x1 ![] hb (constantI S_ 32 0#32)))
            (cmpi .slt (extractStridedSlice S512x1 ![0, c.val] x2 hs) (broadcastInDim S512x1 ![] hb (constantI S_ 32 (BitVec.ofNat 32 N)))))
          (constantI S_ 1 1#1) hr h0 ix0 = 1#1) (n : Fin 512) : (x2 (ix2 n c)).toNat < N := by
  have a := Host.reduce_andi_all _ _ _ _ _ e (ix2 n (0 : Fin 1))
  obtain ⟨ag, al⟩ := IntOp.andi_eq_one.1 a
  have s := slice_col x2 c hs n
  have g : IntOp.cmpi .sge (x2 (ix2 n c)) 0#32 = 1#1 := by rw [← s]; exact ag
  have l : IntOp.cmpi .slt (x2 (ix2 n c)) (BitVec.ofNat 32 N) = 1#1 := by rw [← s]; exact al
  exact toNat_lt_of_signed _ N hN g l

/-- Where the printed precondition is all ones, pair n's row is below 128 and its column below 131072 (as unsigned
    words: each is stated signed, at least 0 and below the extent). -/
theorem inrange [Cert.Pre_finite_inputs.Facts] (x0 : FVec Ideal S128x768 .f32) (x1 : FVec Ideal S131072x768 .f32)
    (x2 : IVec S512x2 32) (x3 : FVec Ideal S1 .f32)
    (h : Cert.Pre_finite_inputs.fn (F := Ideal) x0 x1 x2 x3 = fun _ => 1#1) (n : Fin 512) :
    (x2 (ix2 n 0)).toNat < 128 ∧ (x2 (ix2 n 1)).toNat < 131072 := by
  have e := congrFun h ValueIdx.ix0
  dsimp only [fn, fn_part1] at e
  -- the conjunction of the five reductions: the last two are the two columns' conjuncts
  obtain ⟨e1, e28⟩ := IntOp.andi_eq_one.1 e
  obtain ⟨_, e21⟩ := IntOp.andi_eq_one.1 e1
  exact ⟨col_lt x2 0 _ 128 (by norm_num) _ _ _ e21 n, col_lt x2 1 _ 131072 (by norm_num) _ _ _ e28 n⟩

end Cert.Xmc.Labels

end
-- ==== Proof.lean ====
/-
  One step of a 131072-label binary classifier with cross-entropy loss, as a fused kernel against its plain array
  program: from a batch of 128 embeddings E, the weights W (one row per label), 512 listed positive (example, label)
  pairs and a learning rate, both compute P = logistic(E · Wᵀ), less one at each listed pair (a pair listed twice
  counts once), then the gradient with respect to the embeddings P · W and the weights after one step with weight decay,
  W − lr · (Pᵀ · E + wd · W).

  The kernel walks the label axis in 64 chunks of 2048, 32 per half: per chunk it forms the chunk's logits, counts the
  listed pairs falling on each entry as a product of two one-hot matrices and subtracts min(count, 1), adds the chunk's
  share P_chunk · W_chunk to its half's accumulator, and writes the chunk's updated weights; the two halves' totals are
  added at the end. The array program computes P whole and subtracts one by a gather and a scatter at the listed pairs.
  Over the extended reals the two agree: addition is commutative and associative, so the label sum may be taken chunk by
  chunk and half by half (Spec.lean); writing the same value twice at a repeated pair is writing it once; and each
  program's arithmetic is otherwise term for term the other's. The listed pairs are taken inside the [128, 131072]
  matrix they index: outside it the two programs index differently (the array program wraps a negative index, the
  kernel's comparison never matches one).

  The kernel over machine words, the kernel over the extended reals and the reference each run to completion leaving
  their arguments unchanged; passing to the extended reals rewrote no operation, so there is nothing to preserve.
-/
import proofs.«427815_j37340445672285_2_alg».proof.Defs
import proofs.«427815_j37340445672285_2_alg».proof.Proof.Gen.Kernel.Frame
import proofs.«427815_j37340445672285_2_alg».proof.Proof.Gen.KernelIdeal.Frame
import proofs.«427815_j37340445672285_2_alg».proof.Proof.Gen.ReferenceIdeal
import proofs.«427815_j37340445672285_2_alg».proof.Proof.Gen.ReferenceIdeal.Run
import proofs.«427815_j37340445672285_2_alg».proof.Proof.Gen.ReferenceIdeal.Read
import proofs.«427815_j37340445672285_2_alg».proof.Proof.Gen.Pre_finite_inputs
import proofs.«427815_j37340445672285_2_alg».proof.Proof.Arrays
import proofs.«427815_j37340445672285_2_alg».proof.Proof.Reference
import proofs.«427815_j37340445672285_2_alg».proof.Proof.Labels

noncomputable section

namespace Cert.Proof

open Idealize.ShloMosaic Idealize.SL.Sem Cert.Xmc

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the embedding gradient and the updated weights of the specification, of arguments that
    agree: the kernel by its run read chunk by chunk, the reference by its run read operation by operation, the listed
    pairs in range by the precondition. -/
theorem algebraic : Cert.algebraic_KernelIdeal_ReferenceIdeal := by
  intro m ρ m' ρ' hpre hagree
  have hL : ∀ (c : Dev Cert.KernelIdeal.nD) (n : Fin 512),
      (Accum.Lb m c (ValueIdx.ix2 n 0)).toNat < 128 ∧ (Accum.Lb m c (ValueIdx.ix2 n 1)).toNat < 131072 :=
    fun c n => Labels.inrange _ _ _ _ (hpre c) n
  refine ⟨fun c => gradArr (Accum.E m c) (Accum.W m c) (Accum.Lb m c),
    fun c => newWArr (Accum.E m c) (Accum.W m c) (Accum.Lb m c) (Accum.lr m c), Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v42_eq (F := Ideal) _ _ _).trans ?_
    rw [(hagree c).1, (hagree c).2.1, (hagree c).2.2.1]
    exact Reference.out0_eq _ _ _ (hL c)
  · refine (Cert.ReferenceIdeal.Read.val_main_v51_eq (F := Ideal) m' c).trans ?_
    rw [(hagree c).1, (hagree c).2.1, (hagree c).2.2.1, (hagree c).2.2.2]
    exact Reference.out1_eq _ _ _ _ (hL c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
